-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096x16 : Shape := ⟨2, ![4096, 16]⟩
abbrev S16x4096 : Shape := ⟨2, ![16, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S4096x16 .f32) (main_arg3 : FVec F S16x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S4096x16 : Shape := ⟨2, ![4096, 16]⟩
abbrev S16x4096 : Shape := ⟨2, ![16, 4096]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩
abbrev S1024x16 : Shape := ⟨2, ![1024, 16]⟩
abbrev S16x1024 : Shape := ⟨2, ![16, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x4096, .bf16⟩
  | .hbm, ⟨5, _⟩ => ⟨S16384x4096, .bf16⟩
  | .hbm, ⟨6, _⟩ => ⟨S4096x16, .bf16⟩
  | .hbm, ⟨7, _⟩ => ⟨S16x4096, .bf16⟩
  | .hbm, ⟨8, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x16, .bf16⟩
  | .local _ .vmem, ⟨9, _⟩ => ⟨S1024x16, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  dot_S1024x1024_S1024x1024_S1024x1024_1_1_0_0_n_n_wf : DotDims.WF S1024x1024 S1024x1024 S1024x1024 [1] [1] [0] [0] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .bf16 = 32 ∨ (Rect.block (s := S16384x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S4096x16.size a
  hwx1_2 : ∀ i : grid1.Coords, EltTy.bits .bf16 = 32 ∨ (Rect.block (s := S4096x16) S1024x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x4096.size a
  hwx1_3 : ∀ i : grid1.Coords, EltTy.bits .bf16 = 32 ∨ (Rect.block (s := S16x4096) S16x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S16384x4096.size a
  hwx1_4 : ∀ i : grid1.Coords, EltTy.bits .f32 = 32 ∨ (Rect.block (s := S16384x4096) S1024x1024.size (cc1_transform_4 i) (hinb1_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096x16 : Shape := ⟨2, ![4096, 16]⟩
abbrev S16x4096 : Shape := ⟨2, ![16, 4096]⟩
abbrev S_ : Shape := ⟨0, ![]⟩
abbrev S4096 : Shape := ⟨1, ![4096]⟩
abbrev S4096x1 : Shape := ⟨2, ![4096, 1]⟩
abbrev S16384x16 : Shape := ⟨2, ![16384, 16]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S16384x4096, .f32⟩
  | .hbm, ⟨29, _⟩ => ⟨S16384x16, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []
  dot_S16384x4096_S4096x16_S16384x16_1_0_0_1_n_n_wf : DotDims.WF S16384x4096 S4096x16 S16384x16 [1] [0] [0] [1] [] []
  dot_S16384x16_S16x4096_S16384x4096_1_0_0_1_n_n_wf : DotDims.WF S16384x16 S16x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S16384x16_S16x4096_S16384x4096_1_0_0_1_n_n : DotDims S16384x16 S16x4096 S16384x4096 where
  lhsContracting := [1]
  rhsContracting := [0]
  lhsNonContracting := [0]
  rhsNonContracting := [1]
  lhsBatch := []
  rhsBatch := []
  wf := dot_S16384x16_S16x4096_S16384x4096_1_0_0_1_n_n_wf

class Facts : Prop extends Facts₀ where

variable [Facts]
-- ==== Proof.K.R0.lean ====
/-
  The first kernel region: the weight matrix requantised row block by row block.

  The grid has 16 points; point t works on rows 256 t … 256 t + 255 of the weight matrix, all 4096 columns, so a row's
  largest magnitude is found inside one block. The body reads its input block once, computes the requantised block as
  one pure function of it, and stores the whole output block; it keeps nothing from one point to the next. So each
  point's written-back block is that function of the point's input block, whatever the contents of the matrix when the
  region is entered (the parameter V below), and the region's invariant is only "the buffers no window stages hold
  something".
-/
import proofs.«101650_j25984552141356_1_alg».proof.Proof.Gen.Kernel.Launch
import proofs.«101650_j25984552141356_1_alg».proof.Proof.Gen.Kernel.Skeleton
import proofs.«101650_j25984552141356_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: every statement of this module holds for any such contents
variable (V : (c : Dev nD) → (b : Ref sig .tc) → Buf (Elt F) ((c : Thread nD τ).loc b))

/-! ## The blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the weight matrix at every point, for any proof data
    over V whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev r0_0 : Rect S256x4096 := Rect.unit (s := S256x4096) ![0, 0] S256x4096.size inb_S256x4096_S256x4096_0_0

/-- What the body leaves in the output window's buffer: the requantised block, as its one store over the loaded block. -/
def out0_1 (x0 : Vec F S256x4096 .f32) : Vec F S256x4096 .bf16 :=
  View.canon [⟨r0_0, k0_pay1 (View.ld x0 r0_0)⟩]

/-- That store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body -/

set_option maxHeartbeats 1000000 in
/-- The body on whole staging memrefs — the input's at contents x0, the output's at anything — ends with the input's
    unchanged and the output's at the requantised block of x0. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_dequant_kernel i arg1 harg1 arg2 harg2) K := by
  simp only [cc0__quant_dequant_kernel_eq_skeleton]; unfold cc0__quant_dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- After the body at point t the input's buffer holds its block and the output's the requantised block; the
    invariant is constant; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Gen.Fr

end
-- ==== Proof.K.R1Sched.lean ====
/-
  The second kernel region — the blocked product with the low-rank correction — : its schedule.

  The grid is 16 × 4 × 4, point t = 16 i + 4 j + k in row-major order: i picks 1024 rows of the input, j picks 1024
  output columns, k picks 1024 of the 4096 contracted positions. Two branches depend on k alone: at k = 0 the two
  running sums are set to zero, at k = 3 the output block is formed and stored. Over the 256 points these are the
  points ≡ 0 and ≡ 3 (mod 4). The output window's block index (i, j) does not move with k: it is written back only
  at the points ≡ 3 (mod 4), exactly where the body stores it; elsewhere its buffer is handed back untouched.
  The second factor's block (column block j) is fetched only when j changes; the body only reads it.
-/
import proofs.«101650_j25984552141356_1_alg».proof.Proof.Gen.Kernel.Launch
import proofs.«101650_j25984552141356_1_alg».proof.Proof.Gen.Kernel.Skeleton
import proofs.«101650_j25984552141356_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option Elab.async false

-- the buffers' contents when the region is entered: every statement holds for any such contents
variable (V : (c : Dev nD) → (b : Ref sig .tc) → Buf (Elt F) ((c : Thread nD τ).loc b))

/-! ## The blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block of its array at every point, fetched there or not (where
    it is not fetched its block index has not moved), for any proof data over V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, in closed form over the grid -/

/-- "k = 0": the running sums are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from k = 3 the body stores nothing into the output window and the block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At k = 3 it stores the block. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x16 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The two running sums: whole buffers of the kernel's own. -/
abbrev scM1_0 : Memref sig .tc .vmem S1024x1024 .f32 := Memref.whole cc1_scratch0
abbrev scM1_1 : Memref sig .tc .vmem S1024x16 .f32 := Memref.whole cc1_scratch1
abbrev VS1_0 : View sig .tc .vmem S1024x1024 .f32 := scM1_0.view
abbrev VS1_1 : View sig .tc .vmem S1024x16 .f32 := scM1_1.view

/-- A buffer held whole at some contents. -/
abbrev anyBuf (c : Dev nD) (b : Ref sig .tc) : sProp 𝕄 :=
  iprop(∃ f : Buf (Elt F) ((c : Thread nD τ).loc b), ((c : Thread nD τ).loc b) ↦{fullShare} f)

/-- What the region's invariant holds before its first point: the first region's four staging buffers and the two
    running sums, each at some contents, and the generator register at some state. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [anyBuf, scM1_0, scM1_1, owns_whole]; try rfl

end Cert.Kernel.Gen.Fr

end
-- ==== Proof.K.R1RunA.lean ====
/-
  The second region's body at k = 0, run whole.

  Both running sums are first set to zero, whatever they held; then the block product of the input block with the
  weight block is added to the first and the input block times the first factor's block to the second, each sum read
  back from its buffer before it is stored again. Nothing is stored into the output block, which is handed back as
  it came. What the two sums' buffers end with is recorded as the list of the stores made into each.
-/
import proofs.«101650_j25984552141356_1_alg».proof.Proof.K.R1Sched

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i)
    (x0 : Vec F S1024x1024 .bf16) (x1 : Vec F S1024x1024 .bf16) (x2 : Vec F S1024x16 .bf16) (x3 : Vec F S16x1024 .bf16) :
    Σ' (LS0 : List (View.Piece (Elt F) S1024x1024 .f32)), { LS1 : List (View.Piece (Elt F) S1024x16 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, fun xi4 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Gen.Fr

end
-- ==== Proof.K.R1RunB.lean ====
/-
  The second region's body at 0 < k < 3, run whole.

  The two running sums come in at the contents the point before left; the block product of the input block with the
  weight block is added to the first, the input block times the first factor's block to the second. Nothing is stored
  into the output block, which is handed back as it came.
-/
import proofs.«101650_j25984552141356_1_alg».proof.Proof.K.R1RunA

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    Σ' (LS0 : List (View.Piece (Elt F) S1024x1024 .f32)), { LS1 : List (View.Piece (Elt F) S1024x16 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, fun xi4 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Gen.Fr

end
-- ==== Proof.K.R1RunC.lean ====
/-
  The second region's body at k = 3, run whole.

  As at the points before, the two running sums take their last terms; then the finished second sum is multiplied
  with the second factor's block, doubled, added to the finished first sum, and the result is stored over the whole
  output block, whatever it held.
-/
import proofs.«101650_j25984552141356_1_alg».proof.Proof.K.R1RunB

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    Σ' (L4 : List (View.Piece (Elt F) S1024x1024 .f32)) (LS0 : List (View.Piece (Elt F) S1024x1024 .f32)), { LS1 : List (View.Piece (Elt F) S1024x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, ?_, fun E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel.Gen.Fr

end
-- ==== Proof.K.R1.lean ====
/-
  The second kernel region: what it leaves, point by point, and its body obligation.

  After the body at point t the first running sum holds, for the current block of input rows i and output columns j,
  the partial products over the contracted blocks 0 … k, and the second running sum the partial products of the input
  rows with the first factor over the same blocks; both are reset at k = 0, so what a point leaves depends on the
  point before exactly when k > 0. At k = 3 the output block is formed from the two finished sums. The region's
  invariant therefore names the two sums' contents from one point to the next: before point 0 they hold anything,
  after point n what that point's case left. The first region's staging buffers ride along untouched.
-/
import proofs.«101650_j25984552141356_1_alg».proof.Proof.K.R1RunC

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffers -/

theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) (y : S1024x1024.Idx) :
    ∃ pc ∈ (kernelRun1_A c i arg3 harg3 arg4 harg4 arg5 harg5 arg6 harg6 arg7 harg7 arg8 harg8 arg9 harg9 hc0 hc1 x0 x1 x2 x3).1, y ∈ pc.1.set :=
  View.cover_of_tiledL (kernelRun1_A c i arg3 harg3 arg4 harg4 arg5 harg5 arg6 harg6 arg7 harg7 arg8 harg8 arg9 harg9 hc0 hc1 x0 x1 x2 x3).1 S1024x1024.size (by sl_kernel_rfl) y
theorem scover1_A_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) (y : S1024x16.Idx) :
    ∃ pc ∈ (kernelRun1_A c i arg3 harg3 arg4 harg4 arg5 harg5 arg6 harg6 arg7 harg7 arg8 harg8 arg9 harg9 hc0 hc1 x0 x1 x2 x3).2.1, y ∈ pc.1.set :=
  View.cover_of_tiledL (kernelRun1_A c i arg3 harg3 arg4 harg4 arg5 harg5 arg6 harg6 arg7 harg7 arg8 harg8 arg9 harg9 hc0 hc1 x0 x1 x2 x3).2.1 S1024x16.size (by sl_kernel_rfl) y
/-- The two running sums after a point with k = 0. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3).1)
def sout1_A_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) : Vec F S1024x16 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2 x3).2.1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_B c i arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg3 harg3 arg4 harg4 arg5 harg5 arg6 harg6 arg7 harg7 arg8 harg8 arg9 harg9 hc0 hc1 x0 x1 x2 x3 xs0 xs1).1 S1024x1024.size (by sl_kernel_rfl) y
theorem scover1_B_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x16.Idx) :
    ∃ pc ∈ (kernelRun1_B c i arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg3 harg3 arg4 harg4 arg5 harg5 arg6 harg6 arg7 harg7 arg8 harg8 arg9 harg9 hc0 hc1 x0 x1 x2 x3 xs0 xs1).2.1 S1024x16.size (by sl_kernel_rfl) y
/-- The two running sums after a point with 0 < k < 3, over what the point before left. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 xs0 xs1).1)
def sout1_B_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x16 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 x3 xs0 xs1).2.1)

theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg3 harg3 arg4 harg4 arg5 harg5 arg6 harg6 arg7 harg7 arg8 harg8 arg9 harg9 hc0 hc1 x0 x1 x2 x3 xs0 xs1).1 S1024x1024.size (by sl_kernel_rfl) y
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg3 harg3 arg4 harg4 arg5 harg5 arg6 harg6 arg7 harg7 arg8 harg8 arg9 harg9 hc0 hc1 x0 x1 x2 x3 xs0 xs1).2.1 S1024x1024.size (by sl_kernel_rfl) y
theorem scover1_C_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x16.Idx) :
    ∃ pc ∈ (kernelRun1_C c i arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg3 harg3 arg4 harg4 arg5 harg5 arg6 harg6 arg7 harg7 arg8 harg8 arg9 harg9 hc0 hc1 x0 x1 x2 x3 xs0 xs1).2.2.1 S1024x16.size (by sl_kernel_rfl) y
/-- The output block and the two running sums after a point with k = 3. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VO1_4.read (Elt F) (VO1_4.writes (Elt F) VO1_4.junk (kernelRun1_C c i arg3 harg3 arg4 harg4 arg5 harg5 arg6 harg6 arg7 harg7 arg8 harg8 arg9 harg9 hc0 hc1 x0 x1 x2 x3 xs0 xs1).1)
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 xs0 xs1).2.1)
def sout1_C_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x16 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 x3 xs0 xs1).2.2.1)

/-- A placeholder for the output window's buffer at the points that store nothing into it: nothing consults it, since
    there the block is neither written back nor read. -/
def outIdle : Vec F S1024x1024 .f32 := VO1_4.read (Elt F) VO1_4.junk

/-! ## The accumulation -/

/-- The output window's buffer and the two running sums after the body at position n: the case n's residue mod 4
    selects, run on the point's blocks, over the sums the point before left when k > 0. -/
def outsAt1 (c : Dev nD) : (n : ℕ) → n < cfg1.N → Vec F S1024x1024 .f32 × Vec F S1024x1024 .f32 × Vec F S1024x16 .f32
  | 0, hn =>
    have h0 : (⟨0, hn⟩ : Fin cfg1.N).val % 4 = 0 := Nat.zero_mod _
    have h1 : ¬(⟨0, hn⟩ : Fin cfg1.N).val % 4 = 3 := by show ¬ 0 % 4 = 3; decide
    (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      have h1 : ¬(n + 1) % 4 = 3 := by omega
      (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (outIdle,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- The sums the point before t left (for t > 0). -/
abbrev prevAt1 (c : Dev nD) (t : Fin cfg1.N) : Vec F S1024x1024 .f32 × Vec F S1024x1024 .f32 × Vec F S1024x16 .f32 :=
  outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2,
      sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at n = 0 every buffer the windows do not stage holds anything; afterwards the two running sums
    hold what the point before left, the first region's staging buffers anything. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's residue mod 4 says which case it is in;
    the invariant hands the body the two running sums at what the point before left (at anything at point 0, where
    they are reset before they are read) and takes them back at this point's contents; away from k = 3 the output
    window's buffer is handed back as it came, at k = 3 it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    unfold out1_C_4 sout1_C_0 sout1_C_1; (try dsimp only)
    rw [PhiS1_castSucc V c t, PhiS1_pos V c _ _ hz]
    iintro ⟨⟨⟨HA, HB, HC, HD, HS0, HS1⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HA HB HC HD HS0 HS1 Hg]
    · isplitl [HA HB HC HD HS0 HS1]
      · isplitl [HA]; · iexact HA
        isplitl [HB]; · iexact HB
        isplitl [HC]; · iexact HC
        isplitl [HD]; · iexact HD
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HA, HB, HC, HD, HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HA HB HC HD HS0 HS1 Hg]
        · isplitl [HA HB HC HD HS0 HS1]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA, HB, HC, HD, HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HA HB HC HD HS0 HS1 Hg]
        · isplitl [HA HB HC HD HS0 HS1]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_B V c t h0 h1]
      unfold sout1_B_0 sout1_B_1; (try dsimp only)
      rw [PhiS1_castSucc V c t, PhiS1_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the invariant before the first point is "everything unstaged holds something". -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the sums' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.Gen.Fr

end
-- ==== Proof.K.Run.lean ====
/-
  The whole program's run: the first region, the three format changes on the host, the second region.

  Between two items every buffer of the core that outlives a region holds a known function of the launch memory: at
  launch the memory itself; after the first region the same with the requantised weight array at what that region's
  write-backs leave; after the host stretch the three narrowed copies of the input and the two factors added; after the
  second region the same with the result array at what its write-backs leave. Each region is entered from the buffers
  at the contents before it and left at the contents after it; the generator register and the core's dues (none) ride
  along. At the end every such buffer is read against the last of these functions: the argument arrays are never
  written, so they read back the launch memory, and the result array reads what the second region's write-backs leave.
-/
import proofs.«101650_j25984552141356_1_alg».proof.Proof.K.R0
import proofs.«101650_j25984552141356_1_alg».proof.Proof.K.R1

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the first region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host stretch. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the second region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## No item writes an argument array -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := B1_of_ne m ρ c main_arg0 (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 0).trans (((dat0 (E0 m ρ) c).arrAt_in 0 rfl _).trans (A_eq0 (E0 m ρ) c 0))
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues. -/
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E2 m ρ) c)
    unfold Pipeline.ΦA
    iintro ⟨Hp, -, Hr⟩
    isplitl [Hr]; · iexact Hr
    iexact Hp
  hout c := by
    refine (hout1 (E2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program ends, nothing faulting, with every
    buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

/-- The same run with the result array named: what the second region's write-backs leave. -/
theorem run_result : θ_run defs (onTc (τ := τ) (main (F := F))) ⟨m, fun _ => 0, ρ⟩ (fun r => ∀ c : Dev nD,
      r.2.mem ((c.tc : Thread nD τ).loc main_v4) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (B3_arr m ρ c 4),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.Kernel.Gen.Fr

end
-- ==== Proof.KI.R0.lean ====
/-
  The first kernel region: the weight matrix requantised row block by row block.

  The grid has 16 points; point t works on rows 256 t … 256 t + 255 of the weight matrix, all 4096 columns, so a row's
  largest magnitude is found inside one block. The body reads its input block once, computes the requantised block as
  one pure function of it, and stores the whole output block; it keeps nothing from one point to the next. So each
  point's written-back block is that function of the point's input block, whatever the contents of the matrix when the
  region is entered (the parameter V below), and the region's invariant is only "the buffers no window stages hold
  something".
-/
import proofs.«101650_j25984552141356_1_alg».proof.Proof.Gen.KernelIdeal.Launch
import proofs.«101650_j25984552141356_1_alg».proof.Proof.Gen.KernelIdeal.Skeleton
import proofs.«101650_j25984552141356_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: every statement of this module holds for any such contents
variable (V : (c : Dev nD) → (b : Ref sig .tc) → Buf (Elt F) ((c : Thread nD τ).loc b))

/-! ## The blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the weight matrix at every point, for any proof data
    over V whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev r0_0 : Rect S256x4096 := Rect.unit (s := S256x4096) ![0, 0] S256x4096.size inb_S256x4096_S256x4096_0_0

/-- What the body leaves in the output window's buffer: the requantised block, as its one store over the loaded block. -/
def out0_1 (x0 : Vec F S256x4096 .f32) : Vec F S256x4096 .bf16 :=
  View.canon [⟨r0_0, k0_pay1 (View.ld x0 r0_0)⟩]

/-- That store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body -/

set_option maxHeartbeats 1000000 in
/-- The body on whole staging memrefs — the input's at contents x0, the output's at anything — ends with the input's
    unchanged and the output's at the requantised block of x0. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_dequant_kernel i arg1 harg1 arg2 harg2) K := by
  simp only [cc0__quant_dequant_kernel_eq_skeleton]; unfold cc0__quant_dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- After the body at point t the input's buffer holds its block and the output's the requantised block; the
    invariant is constant; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Gen.Fr

end
-- ==== Proof.KI.R1Sched.lean ====
/-
  The second kernel region — the blocked product with the low-rank correction — : its schedule.

  The grid is 16 × 4 × 4, point t = 16 i + 4 j + k in row-major order: i picks 1024 rows of the input, j picks 1024
  output columns, k picks 1024 of the 4096 contracted positions. Two branches depend on k alone: at k = 0 the two
  running sums are set to zero, at k = 3 the output block is formed and stored. Over the 256 points these are the
  points ≡ 0 and ≡ 3 (mod 4). The output window's block index (i, j) does not move with k: it is written back only
  at the points ≡ 3 (mod 4), exactly where the body stores it; elsewhere its buffer is handed back untouched.
  The second factor's block (column block j) is fetched only when j changes; the body only reads it.
-/
import proofs.«101650_j25984552141356_1_alg».proof.Proof.Gen.KernelIdeal.Launch
import proofs.«101650_j25984552141356_1_alg».proof.Proof.Gen.KernelIdeal.Skeleton
import proofs.«101650_j25984552141356_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option Elab.async false

-- the buffers' contents when the region is entered: every statement holds for any such contents
variable (V : (c : Dev nD) → (b : Ref sig .tc) → Buf (Elt F) ((c : Thread nD τ).loc b))

/-! ## The blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block of its array at every point, fetched there or not (where
    it is not fetched its block index has not moved), for any proof data over V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, in closed form over the grid -/

/-- "k = 0": the running sums are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from k = 3 the body stores nothing into the output window and the block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At k = 3 it stores the block. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x16 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The two running sums: whole buffers of the kernel's own. -/
abbrev scM1_0 : Memref sig .tc .vmem S1024x1024 .f32 := Memref.whole cc1_scratch0
abbrev scM1_1 : Memref sig .tc .vmem S1024x16 .f32 := Memref.whole cc1_scratch1
abbrev VS1_0 : View sig .tc .vmem S1024x1024 .f32 := scM1_0.view
abbrev VS1_1 : View sig .tc .vmem S1024x16 .f32 := scM1_1.view

/-- A buffer held whole at some contents. -/
abbrev anyBuf (c : Dev nD) (b : Ref sig .tc) : sProp 𝕄 :=
  iprop(∃ f : Buf (Elt F) ((c : Thread nD τ).loc b), ((c : Thread nD τ).loc b) ↦{fullShare} f)

/-- What the region's invariant holds before its first point: the first region's four staging buffers and the two
    running sums, each at some contents, and the generator register at some state. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [anyBuf, scM1_0, scM1_1, owns_whole]; try rfl

end Cert.KernelIdeal.Gen.Fr

end
-- ==== Proof.KI.R1RunA.lean ====
/-
  The second region's body at k = 0, run whole.

  Both running sums are first set to zero, whatever they held; then the block product of the input block with the
  weight block is added to the first and the input block times the first factor's block to the second, each sum read
  back from its buffer before it is stored again. Nothing is stored into the output block, which is handed back as
  it came. What the two sums' buffers end with is recorded as the list of the stores made into each.
-/
import proofs.«101650_j25984552141356_1_alg».proof.Proof.KI.R1Sched

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i)
    (x0 : Vec F S1024x1024 .bf16) (x1 : Vec F S1024x1024 .bf16) (x2 : Vec F S1024x16 .bf16) (x3 : Vec F S16x1024 .bf16) :
    Σ' (LS0 : List (View.Piece (Elt F) S1024x1024 .f32)), { LS1 : List (View.Piece (Elt F) S1024x16 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, fun xi4 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Gen.Fr

end
-- ==== Proof.KI.R1RunB.lean ====
/-
  The second region's body at 0 < k < 3, run whole.

  The two running sums come in at the contents the point before left; the block product of the input block with the
  weight block is added to the first, the input block times the first factor's block to the second. Nothing is stored
  into the output block, which is handed back as it came.
-/
import proofs.«101650_j25984552141356_1_alg».proof.Proof.KI.R1RunA

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    Σ' (LS0 : List (View.Piece (Elt F) S1024x1024 .f32)), { LS1 : List (View.Piece (Elt F) S1024x16 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, fun xi4 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Gen.Fr

end
-- ==== Proof.KI.R1RunC.lean ====
/-
  The second region's body at k = 3, run whole.

  As at the points before, the two running sums take their last terms; then the finished second sum is multiplied
  with the second factor's block, doubled, added to the finished first sum, and the result is stored over the whole
  output block, whatever it held.
-/
import proofs.«101650_j25984552141356_1_alg».proof.Proof.KI.R1RunB

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    Σ' (L4 : List (View.Piece (Elt F) S1024x1024 .f32)) (LS0 : List (View.Piece (Elt F) S1024x1024 .f32)), { LS1 : List (View.Piece (Elt F) S1024x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__lora_matmul_kernel i arg3 harg3 arg4 harg4 arg5 harg5 arg6 harg6 arg7 harg7 arg8 harg8 arg9 harg9) K } := by
  refine ⟨?_, ?_, ?_, fun E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.KernelIdeal.Gen.Fr

end
-- ==== Proof.KI.R1.lean ====
/-
  The second kernel region: what it leaves, point by point, and its body obligation.

  After the body at point t the first running sum holds, for the current block of input rows i and output columns j,
  the partial products over the contracted blocks 0 … k, and the second running sum the partial products of the input
  rows with the first factor over the same blocks; both are reset at k = 0, so what a point leaves depends on the
  point before exactly when k > 0. At k = 3 the output block is formed from the two finished sums. The region's
  invariant therefore names the two sums' contents from one point to the next: before point 0 they hold anything,
  after point n what that point's case left. The first region's staging buffers ride along untouched.
-/
import proofs.«101650_j25984552141356_1_alg».proof.Proof.KI.R1RunC

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffers -/

theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) (y : S1024x1024.Idx) :
    ∃ pc ∈ (kernelRun1_A c i arg3 harg3 arg4 harg4 arg5 harg5 arg6 harg6 arg7 harg7 arg8 harg8 arg9 harg9 hc0 hc1 x0 x1 x2 x3).1, y ∈ pc.1.set :=
  View.cover_of_tiledL (kernelRun1_A c i arg3 harg3 arg4 harg4 arg5 harg5 arg6 harg6 arg7 harg7 arg8 harg8 arg9 harg9 hc0 hc1 x0 x1 x2 x3).1 S1024x1024.size (by sl_kernel_rfl) y
theorem scover1_A_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) (y : S1024x16.Idx) :
    ∃ pc ∈ (kernelRun1_A c i arg3 harg3 arg4 harg4 arg5 harg5 arg6 harg6 arg7 harg7 arg8 harg8 arg9 harg9 hc0 hc1 x0 x1 x2 x3).2.1, y ∈ pc.1.set :=
  View.cover_of_tiledL (kernelRun1_A c i arg3 harg3 arg4 harg4 arg5 harg5 arg6 harg6 arg7 harg7 arg8 harg8 arg9 harg9 hc0 hc1 x0 x1 x2 x3).2.1 S1024x16.size (by sl_kernel_rfl) y
/-- The two running sums after a point with k = 0. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3).1)
def sout1_A_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i) (x0 : Vec F S1024x1024 .bf16) (x1 : Vec F S1024x1024 .bf16) (x2 : Vec F S1024x16 .bf16) (x3 : Vec F S16x1024 .bf16) : Vec F S1024x16 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2 x3).2.1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_B c i arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg3 harg3 arg4 harg4 arg5 harg5 arg6 harg6 arg7 harg7 arg8 harg8 arg9 harg9 hc0 hc1 x0 x1 x2 x3 xs0 xs1).1 S1024x1024.size (by sl_kernel_rfl) y
theorem scover1_B_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x16.Idx) :
    ∃ pc ∈ (kernelRun1_B c i arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg3 harg3 arg4 harg4 arg5 harg5 arg6 harg6 arg7 harg7 arg8 harg8 arg9 harg9 hc0 hc1 x0 x1 x2 x3 xs0 xs1).2.1 S1024x16.size (by sl_kernel_rfl) y
/-- The two running sums after a point with 0 < k < 3, over what the point before left. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 xs0 xs1).1)
def sout1_B_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x16 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 x3 xs0 xs1).2.1)

theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg3 harg3 arg4 harg4 arg5 harg5 arg6 harg6 arg7 harg7 arg8 harg8 arg9 harg9 hc0 hc1 x0 x1 x2 x3 xs0 xs1).1 S1024x1024.size (by sl_kernel_rfl) y
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg3 harg3 arg4 harg4 arg5 harg5 arg6 harg6 arg7 harg7 arg8 harg8 arg9 harg9 hc0 hc1 x0 x1 x2 x3 xs0 xs1).2.1 S1024x1024.size (by sl_kernel_rfl) y
theorem scover1_C_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) (y : S1024x16.Idx) :
    ∃ pc ∈ (kernelRun1_C c i arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg3 harg3 arg4 harg4 arg5 harg5 arg6 harg6 arg7 harg7 arg8 harg8 arg9 harg9 hc0 hc1 x0 x1 x2 x3 xs0 xs1).2.2.1 S1024x16.size (by sl_kernel_rfl) y
/-- The output block and the two running sums after a point with k = 3. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VO1_4.read (Elt F) (VO1_4.writes (Elt F) VO1_4.junk (kernelRun1_C c i arg3 harg3 arg4 harg4 arg5 harg5 arg6 harg6 arg7 harg7 arg8 harg8 arg9 harg9 hc0 hc1 x0 x1 x2 x3 xs0 xs1).1)
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 xs0 xs1).2.1)
def sout1_C_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i) (x0 : Vec F S1024x1024 .bf16) (x1 : Vec F S1024x1024 .bf16) (x2 : Vec F S1024x16 .bf16) (x3 : Vec F S16x1024 .bf16) (xs0 : Vec F S1024x1024 .f32) (xs1 : Vec F S1024x16 .f32) : Vec F S1024x16 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 x3 xs0 xs1).2.2.1)

/-- A placeholder for the output window's buffer at the points that store nothing into it: nothing consults it, since
    there the block is neither written back nor read. -/
def outIdle : Vec F S1024x1024 .f32 := VO1_4.read (Elt F) VO1_4.junk

/-! ## The accumulation -/

/-- The output window's buffer and the two running sums after the body at position n: the case n's residue mod 4
    selects, run on the point's blocks, over the sums the point before left when k > 0. -/
def outsAt1 (c : Dev nD) : (n : ℕ) → n < cfg1.N → Vec F S1024x1024 .f32 × Vec F S1024x1024 .f32 × Vec F S1024x16 .f32
  | 0, hn =>
    have h0 : (⟨0, hn⟩ : Fin cfg1.N).val % 4 = 0 := Nat.zero_mod _
    have h1 : ¬(⟨0, hn⟩ : Fin cfg1.N).val % 4 = 3 := by show ¬ 0 % 4 = 3; decide
    (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      have h1 : ¬(n + 1) % 4 = 3 := by omega
      (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (outIdle,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- The sums the point before t left (for t > 0). -/
abbrev prevAt1 (c : Dev nD) (t : Fin cfg1.N) : Vec F S1024x1024 .f32 × Vec F S1024x1024 .f32 × Vec F S1024x16 .f32 :=
  outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2,
      sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at n = 0 every buffer the windows do not stage holds anything; afterwards the two running sums
    hold what the point before left, the first region's staging buffers anything. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg1_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's residue mod 4 says which case it is in;
    the invariant hands the body the two running sums at what the point before left (at anything at point 0, where
    they are reset before they are read) and takes them back at this point's contents; away from k = 3 the output
    window's buffer is handed back as it came, at k = 3 it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    unfold out1_C_4 sout1_C_0 sout1_C_1; (try dsimp only)
    rw [PhiS1_castSucc V c t, PhiS1_pos V c _ _ hz]
    iintro ⟨⟨⟨HA, HB, HC, HD, HS0, HS1⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HA HB HC HD HS0 HS1 Hg]
    · isplitl [HA HB HC HD HS0 HS1]
      · isplitl [HA]; · iexact HA
        isplitl [HB]; · iexact HB
        isplitl [HC]; · iexact HC
        isplitl [HD]; · iexact HD
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HA, HB, HC, HD, HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HA HB HC HD HS0 HS1 Hg]
        · isplitl [HA HB HC HD HS0 HS1]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA, HB, HC, HD, HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HA HB HC HD HS0 HS1 Hg]
        · isplitl [HA HB HC HD HS0 HS1]
          · isplitl [HA]; · iexact HA
            isplitl [HB]; · iexact HB
            isplitl [HC]; · iexact HC
            isplitl [HD]; · iexact HD
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_B V c t h0 h1]
      unfold sout1_B_0 sout1_B_1; (try dsimp only)
      rw [PhiS1_castSucc V c t, PhiS1_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the invariant before the first point is "everything unstaged holds something". -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the sums' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Gen.Fr

end
-- ==== Proof.KI.Run.lean ====
/-
  The whole program's run: the first region, the three format changes on the host, the second region.

  Between two items every buffer of the core that outlives a region holds a known function of the launch memory: at
  launch the memory itself; after the first region the same with the requantised weight array at what that region's
  write-backs leave; after the host stretch the three narrowed copies of the input and the two factors added; after the
  second region the same with the result array at what its write-backs leave. Each region is entered from the buffers
  at the contents before it and left at the contents after it; the generator register and the core's dues (none) ride
  along. At the end every such buffer is read against the last of these functions: the argument arrays are never
  written, so they read back the launch memory, and the result array reads what the second region's write-backs leave.
-/
import proofs.«101650_j25984552141356_1_alg».proof.Proof.KI.R0
import proofs.«101650_j25984552141356_1_alg».proof.Proof.KI.R1

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the first region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host stretch. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the second region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## No item writes an argument array -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := B1_of_ne m ρ c main_arg0 (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 0).trans (((dat0 (E0 m ρ) c).arrAt_in 0 rfl _).trans (A_eq0 (E0 m ρ) c 0))
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues. -/
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E2 m ρ) c)
    unfold Pipeline.ΦA
    iintro ⟨Hp, -, Hr⟩
    isplitl [Hr]; · iexact Hr
    iexact Hp
  hout c := by
    refine (hout1 (E2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program ends, nothing faulting, with every
    buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

/-- The same run with the result array named: what the second region's write-backs leave. -/
theorem run_result : θ_run defs (onTc (τ := τ) (main (F := F))) ⟨m, fun _ => 0, ρ⟩ (fun r => ∀ c : Dev nD,
      r.2.mem ((c.tc : Thread nD τ).loc main_v4) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (B3_arr m ρ c 4),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.KernelIdeal.Gen.Fr

end
-- ==== Proof.Spec.lean ====
/-
  What both programs compute, over the extended reals.

  Each row of the 4096 × 4096 weight matrix is quantised to the 8-bit grid of its own scale and mapped back: the
  row's scale s is its largest magnitude divided by 127; an entry w becomes
  clip (round-half-even (w / (s + ε)), −128, 127) · s, with ε the single-precision word nearest 1e-8. The layer's
  output at (t, o) is then the product of the input row t with the requantised weight row o, plus twice the low-rank
  correction: the 16 coefficients of row t against the first factor, contracted with column o of the second factor.
  The divisor 127 and ε stay the binary words both programs spell; the clip bounds are the reals −128 and 127.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The largest magnitude of a row of 4096 entries, as the running maximum from −∞ of max (w, −w). -/
def rowMax (row : Fin 4096 → EReal) : EReal :=
  (Finset.univ : Finset (Fin 4096)).fold max (Ideal.ofBits .f32 0xFF800000#32) (fun k => max (row k) (-(row k)))

/-- A row's scale: its largest magnitude over 127. -/
def scale (row : Fin 4096 → EReal) : EReal := Ideal.div (rowMax row) (Ideal.ofBits .f32 0x42FE0000#32)

/-- One entry of a row, quantised to the row's 8-bit grid and mapped back. -/
def deqRow (row : Fin 4096 → EReal) (q : Fin 4096) : EReal :=
  min ((127 : ℝ) : EReal) (max ((-128 : ℝ) : EReal)
    (Ideal.liftRound Ideal.roundHalfEven (Ideal.div (row q) (scale row + Ideal.ofBits .f32 0x322BCC77#32)))) * scale row

/-- The requantised weight matrix. -/
def deq (w : (⟨2, ![4096, 4096]⟩ : Shape).Idx → EReal) : (⟨2, ![4096, 4096]⟩ : Shape).Idx → EReal := fun j =>
  deqRow (fun k => w (ix2 (⟨(j 0).val, idx2_lt0 j⟩ : Fin 4096) k)) (⟨(j 1).val, idx2_lt1 j⟩ : Fin 4096)

theorem deq_ix2 (w : (⟨2, ![4096, 4096]⟩ : Shape).Idx → EReal) (p q : Fin 4096) :
    deq w (ix2 p q) = deqRow (fun k => w (ix2 p k)) q := rfl

/-- The layer on an already requantised weight matrix: x · ŵᵀ + 2 · ((x · a) · b). -/
def lin (x : (⟨2, ![16384, 4096]⟩ : Shape).Idx → EReal) (wd : (⟨2, ![4096, 4096]⟩ : Shape).Idx → EReal)
    (la : (⟨2, ![4096, 16]⟩ : Shape).Idx → EReal) (lb : (⟨2, ![16, 4096]⟩ : Shape).Idx → EReal) :
    (⟨2, ![16384, 4096]⟩ : Shape).Idx → EReal := fun j =>
  (∑ k : Fin 4096, x (ix2 (⟨(j 0).val, idx2_lt0 j⟩ : Fin 16384) k) * wd (ix2 (⟨(j 1).val, idx2_lt1 j⟩ : Fin 4096) k))
    + Ideal.ofBits .f32 0x40000000#32
      * ∑ r : Fin 16, (∑ k : Fin 4096, x (ix2 (⟨(j 0).val, idx2_lt0 j⟩ : Fin 16384) k) * la (ix2 k r))
          * lb (ix2 r (⟨(j 1).val, idx2_lt1 j⟩ : Fin 4096))

theorem lin_ix2 (x : (⟨2, ![16384, 4096]⟩ : Shape).Idx → EReal) (wd : (⟨2, ![4096, 4096]⟩ : Shape).Idx → EReal)
    (la : (⟨2, ![4096, 16]⟩ : Shape).Idx → EReal) (lb : (⟨2, ![16, 4096]⟩ : Shape).Idx → EReal) (t : Fin 16384) (o : Fin 4096) :
    lin x wd la lb (ix2 t o)
      = (∑ k : Fin 4096, x (ix2 t k) * wd (ix2 o k))
        + Ideal.ofBits .f32 0x40000000#32 * ∑ r : Fin 16, (∑ k : Fin 4096, x (ix2 t k) * la (ix2 k r)) * lb (ix2 r o) := rfl

/-- The whole layer: requantise the weights, then apply them. -/
def fin (x : (⟨2, ![16384, 4096]⟩ : Shape).Idx → EReal) (w : (⟨2, ![4096, 4096]⟩ : Shape).Idx → EReal)
    (la : (⟨2, ![4096, 16]⟩ : Shape).Idx → EReal) (lb : (⟨2, ![16, 4096]⟩ : Shape).Idx → EReal) :
    (⟨2, ![16384, 4096]⟩ : Shape).Idx → EReal := lin x (deq w) la lb

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.PayVal.lean ====
/-
  The two kernels' arithmetic read at one index, over the extended reals.

  Region 1 keeps two accumulators. They start at zero; each step adds to the first the product of an input block with
  the transposed weight block (both operands' columns are summed over), and to the second the product of the input
  block with a block of the first low-rank factor; the last step adds twice the product of the second accumulator with
  the second low-rank factor. Region 0 requantises a block of 256 weight rows: each row is divided by its own scale
  (its largest magnitude over 127, plus a small constant), rounded to the nearest integer with ties to even, clipped
  to [-128, 127] and multiplied back by the scale.
-/
import proofs.«101650_j25984552141356_1_alg».proof.Proof.Gen.KernelIdeal.Skeleton
import proofs.«101650_j25984552141356_1_alg».proof.Proof.Spec
import proofs.«101650_j25984552141356_1_alg».proof.Proof.LibDot
import proofs.«101650_j25984552141356_1_alg».proof.Proof.LibDotT
import proofs.«101650_j25984552141356_1_alg».proof.Proof.LibRowRead
import proofs.«101650_j25984552141356_1_alg».proof.Proof.LibKeepdims
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PayVal

open Cert.KernelIdeal Cert.KernelIdeal.Gen Idealize.ShloMosaic Idealize.ShloMosaic.ValueIdx

/-! ## Region 1: the accumulators -/

/-- The first accumulator starts at zero: a spread of the zero word, recast to its own shape. -/
theorem pay1_apply (j : S1024x1024.Idx) : (k1_pay1 (F := Ideal)) j = 0 := by
  unfold k1_pay1
  rw [shapeCast_self]
  exact Ideal.ofBits_zero_f32

/-- The second accumulator starts at zero. -/
theorem pay2_apply (j : S1024x16.Idx) : (k1_pay2 (F := Ideal)) j = 0 := by
  unfold k1_pay2
  rw [shapeCast_self]
  exact Ideal.ofBits_zero_f32

/-- One step of the main product at entry (p, q): the accumulator there plus the sum over the shared column k of
    x(p, k) · w(q, k). -/
theorem pay3_apply (a : Vec Ideal S1024x1024 .f32) (x w : Vec Ideal S1024x1024 .bf16) (p q : Fin 1024) :
    k1_pay3 a x w (ix2 p q) = a (ix2 p q) + ∑ k : Fin 1024, x (ix2 p k) * w (ix2 q k) := by
  unfold k1_pay3
  simp only [shapeCast_self]
  refine congrArg (fun t => a (ix2 p q) + t) ?_
  exact Cert.LibDotT.matmul_zero_at_T dot_S1024x1024_S1024x1024_S1024x1024_1_1_0_0_n_n rfl rfl rfl rfl rfl rfl none x w p q

/-- One step of the first low-rank product at entry (p, r): the accumulator there plus the sum over k of
    x(p, k) · la(k, r). -/
theorem pay4_apply (a : Vec Ideal S1024x16 .f32) (x : Vec Ideal S1024x1024 .bf16) (la : Vec Ideal S1024x16 .bf16)
    (p : Fin 1024) (r : Fin 16) :
    k1_pay4 a x la (ix2 p r) = a (ix2 p r) + ∑ k : Fin 1024, x (ix2 p k) * la (ix2 k r) := by
  unfold k1_pay4
  simp only [shapeCast_self]
  refine congrArg (fun t => a (ix2 p r) + t) ?_
  exact Cert.LibDot.matmul_zero_at dot_S1024x1024_S1024x16_S1024x16_1_0_0_1_n_n rfl rfl rfl rfl rfl rfl none x la p r

/-- The closing step at entry (p, q): the main accumulator there plus twice the sum over the 16 coefficients r of
    l(p, r) · lb(r, q); narrowing the coefficients' format changes nothing over the extended reals. -/
theorem pay5_apply (l : Vec Ideal S1024x16 .f32) (lb : Vec Ideal S16x1024 .bf16) (a : Vec Ideal S1024x1024 .f32)
    (p q : Fin 1024) :
    k1_pay5 l lb a (ix2 p q)
      = a (ix2 p q) + Ideal.ofBits .f32 0x40000000#32 * ∑ r : Fin 16, l (ix2 p r) * lb (ix2 r q) := by
  unfold k1_pay5
  simp only [shapeCast_self]
  refine congrArg (fun t => a (ix2 p q) + Ideal.ofBits .f32 0x40000000#32 * t) ?_
  exact Cert.LibDot.matmul_zero_at dot_S1024x16_S16x1024_S1024x1024_1_0_0_1_n_n rfl rfl rfl rfl rfl rfl none
    (truncf .bf16 l bitsLt_bf16_f32) lb p q

/-! ## Region 0: a block of rows requantised -/

/-- The clip's lower bound: the word 0xC3000000 denotes −128. -/
theorem word_neg128 : Ideal.ofBits .f32 0xC3000000#32 = ((-128 : ℝ) : EReal) := by
  simp [Ideal.ofBits, Ideal.ieee, -EReal.coe_mul]; norm_num

/-- The clip's upper bound: the word 0x42FE0000 denotes 127. -/
theorem word_127 : Ideal.ofBits .f32 0x42FE0000#32 = ((127 : ℝ) : EReal) := by
  simp [Ideal.ofBits, Ideal.ieee, -EReal.coe_mul]; norm_num

/-- The maximum along the columns of a 256 × 4096 block, read at row p: the running maximum from the initial word
    over the 4096 entries (p, k). -/
theorem laneMax_apply (x : FVec Ideal S256x4096 .f32) (p : Fin 256) :
    multiReduction (F := Ideal) .maximumf [1] S256 x 0xFF800000#32 reduces_S256x4096_S256 (.inl rfl) rfl (ix1 p)
      = (Finset.univ : Finset (Fin 4096)).fold max (Ideal.ofBits .f32 0xFF800000#32) (fun k => x (ix2 p k)) := by
  refine (Ideal.multiReduction_maximumf_single x _ reduces_S256x4096_S256 _ _ (ix1 p)).trans ?_
  have hf : (x ∘ reduces_S256x4096_S256.lift (ix1 p)) = fun k : Fin 4096 => x (ix2 p k) :=
    funext fun k => congrArg x (Cert.LibRowRead.lift_row reduces_S256x4096_S256 p k)
  exact congrArg (fun f => Finset.fold max (Ideal.ofBits .f32 0xFF800000#32) f (Finset.univ : Finset (Fin 4096))) hf

/-- The column of the block's row scales: each row's largest magnitude, kept as a one-entry column, over 127. -/
def scaleCol (v : Vec Ideal S256x4096 .f32) : FVec Ideal S256x1 .f32 :=
  divf
    (shapeCast S256x1
      (multiReduction (F := Ideal) .maximumf [1] S256 (absf v) 0xFF800000#32 reduces_S256x4096_S256 (.inl rfl) rfl)
      shapeCasts_S256_S256x1)
    (broadcast S256x1 (Scalar.ofBits (F := Ideal) .f32 0x42FE0000#32))

/-- The scale column's entry of row p is that row's scale. -/
theorem scaleCol_apply (v : Vec Ideal S256x4096 .f32) (p : Fin 256) :
    scaleCol v (ix2 p (0 : Fin 1)) = Cert.Spec.scale (fun k => v (ix2 p k)) := by
  unfold scaleCol Cert.Spec.scale Cert.Spec.rowMax
  show Ideal.div (shapeCast S256x1 _ shapeCasts_S256_S256x1 (ix2 p (0 : Fin 1))) (Ideal.ofBits .f32 0x42FE0000#32) = _
  rw [shapeCast_a_a1_apply, laneMax_apply]
  rfl

/-- The requantised block at (p, q): row p's entry q divided by the row's scale plus the small constant, rounded
    half to even, clipped to [−128, 127], times the row's scale. -/
theorem pay0_apply (v : Vec Ideal S256x4096 .f32) (p : Fin 256) (q : Fin 4096) :
    k0_pay1 v (ix2 p q) = Cert.Spec.deqRow (fun k => v (ix2 p k)) q := by
  unfold k0_pay1 Cert.Spec.deqRow
  show min (Ideal.ofBits .f32 0x42FE0000#32) (max (Ideal.ofBits .f32 0xC3000000#32)
      (Ideal.liftRound Ideal.roundHalfEven (Ideal.div (v (ix2 p q))
        (broadcastTo S256x4096 (addf (scaleCol v) (broadcast S256x1 (Scalar.ofBits (F := Ideal) .f32 0x322BCC77#32)))
          broadcasts_S256x1_S256x4096 (ix2 p q)))))
      * broadcastTo S256x4096 (scaleCol v) broadcasts_S256x1_S256x4096 (ix2 p q) = _
  rw [broadcastTo_a1_ab_apply, broadcastTo_a1_ab_apply]
  show min (Ideal.ofBits .f32 0x42FE0000#32) (max (Ideal.ofBits .f32 0xC3000000#32)
      (Ideal.liftRound Ideal.roundHalfEven (Ideal.div (v (ix2 p q))
        (scaleCol v (ix2 p (0 : Fin 1)) + Ideal.ofBits .f32 0x322BCC77#32))))
      * scaleCol v (ix2 p (0 : Fin 1)) = _
  rw [scaleCol_apply, word_127, word_neg128]

end Cert.PayVal

end
-- ==== Proof.KI.Val0.lean ====
/-
  The first kernel region's result as one function of the weight matrix.

  Point t of the 16 reads rows 256 t … 256 t + 255 of the weight matrix, all 4096 columns, and writes back the same
  rows of the output. A row's requantised entries depend on that row alone (its largest magnitude gives its scale),
  and each block holds whole rows, so what a point writes back is its block of the matrix requantised row by row.
  The 16 blocks tile the rows, so after the last point the output array is the requantised matrix.
-/
import proofs.«101650_j25984552141356_1_alg».proof.Proof.KI.R0
import proofs.«101650_j25984552141356_1_alg».proof.Proof.PayVal
import proofs.«101650_j25984552141356_1_alg».proof.Proof.Spec
import Idealize.ShloMosaic.Lib.Pipeline.Value
import Idealize.ShloMosaic.Lib.ValueIdx

noncomputable section

namespace Cert.Val0

open Cert.KernelIdeal Cert.KernelIdeal.Gen Cert.KernelIdeal.Gen.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of the rectangle the body loads and stores through. -/
theorem hz : (![0, 0] : Fin 2 → Nat) = fun _ => 0 := funext fun a => by fin_cases a <;> rfl

/-- The two index maps over the 16 grid points: point t takes block (t, 0) of the weight matrix and gives back
    block (t, 0) of the requantised one. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One entry of a requantised block against the requantised matrix: if row (y 0) of the block x0 is row (i 0) of
    the matrix W, entry by entry, and the column is the same, the block's requantised entry at y is the matrix's
    at i — a row's scale is computed from that row alone. -/
theorem point_eq (W : S4096x4096.Idx → EReal) (x0 : Vec Ideal S256x4096 .f32) (y : S256x4096.Idx) (i : S4096x4096.Idx)
    (hrow : ∀ k : Fin 4096, x0 (ix2 (y 0) k) = W (ix2 (i 0) k)) (hcol : (i 1).val = (y 1).val) :
    k0_pay1 x0 y = Cert.Spec.deq W i := by
  obtain ⟨p, q, rfl⟩ : ∃ (p : Fin 256) (q : Fin 4096), y = ix2 p q := ⟨y 0, y 1, eq_ix2 y⟩
  obtain ⟨r, s, rfl⟩ : ∃ (r : Fin 4096) (s : Fin 4096), i = ix2 r s := ⟨i 0, i 1, eq_ix2 i⟩
  rw [Cert.PayVal.pay0_apply, Cert.Spec.deq_ix2]
  have hq : s = q := Fin.ext hcol
  have hf : (fun k => x0 (ix2 p k)) = fun k => W (ix2 r k) := funext hrow
  rw [hq, hf]

/-- What point t writes back is block t of the requantised weight matrix: the block's row p is row 256 t + p of
    the matrix, all 4096 columns. -/
theorem flushed_eq (c : Dev nD) (t : Fin cfg0.N) :
    (dat0 (F := Ideal) V c).flushed 1 t
      = ((cfg0.win 1).blk t).view.read (Elt Ideal) (Cert.Spec.deq (V c main_arg1)) := by
  show (cfg0.win 1).cut (grid0.coords t) ((dat0 V c).after 1 t) = _
  rw [after0_1]
  unfold out0_1
  rw [View.canon_unit_zero hz]
  simp only [View.ld_unit_zero (S := S256x4096) hz]
  obtain ⟨e0, e1, e2, e3⟩ := idx_facts t
  funext j
  show k0_pay1 (iblk0 V c 0 t) j = Cert.Spec.deq (V c main_arg1) (((cfg0.win 1).blk t).view.emb j)
  refine point_eq (V c main_arg1) (iblk0 V c 0 t) j _ (fun k => ?_) ?_
  · show V c main_arg1 (((cfg0.win 0).blk t).view.emb (ix2 (j 0) k)) = _
    refine congrArg (V c main_arg1) (funext fun a => Fin.ext ?_)
    match a with
    | ⟨0, _⟩ =>
      show win0_0.index t (0 : Fin 2) * 256 + 1 * (j 0).val = win0_1.index t (0 : Fin 2) * 256 + 1 * (j 0).val
      omega
    | ⟨1, _⟩ =>
      show win0_0.index t (1 : Fin 2) * 4096 + 1 * k.val = k.val
      omega
  · show win0_1.index t (1 : Fin 2) * 4096 + 1 * (j 1).val = (j 1).val
    omega

/-- An index of the matrix is in point t's block iff each coordinate is in the block's range on its axis. -/
theorem mem_blk (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- Every index of the matrix is in some point's block: row r lies in the block of point r / 256. -/
theorem cover (i : S4096x4096.Idx) :
    ∃ t : Fin cfg0.N, (cfg0.win 1).flush t = true ∧ i ∈ ((cfg0.win 1).blk t).view.set := by
  have h0 : (i 0).val < 4096 := (i 0).isLt
  have h1 : (i 1).val < 4096 := (i 1).isLt
  have ht : (i 0).val / 256 < 16 := by omega
  obtain ⟨-, -, e2, e3⟩ := idx_facts (⟨(i 0).val / 256, ht⟩ : Fin cfg0.N)
  have e2' : win0_1.index (⟨(i 0).val / 256, ht⟩ : Fin cfg0.N) (0 : Fin 2) = (i 0).val / 256 := e2
  refine ⟨⟨(i 0).val / 256, ht⟩, flush0_1 _, ?_⟩
  rw [mem_blk]
  intro a
  match a with
  | ⟨0, _⟩ =>
    show win0_1.index (⟨(i 0).val / 256, ht⟩ : Fin cfg0.N) (0 : Fin 2) * 256 ≤ (i 0).val
      ∧ (i 0).val < win0_1.index (⟨(i 0).val / 256, ht⟩ : Fin cfg0.N) (0 : Fin 2) * 256 + 256
    omega
  | ⟨1, _⟩ =>
    show win0_1.index (⟨(i 0).val / 256, ht⟩ : Fin cfg0.N) (1 : Fin 2) * 4096 ≤ (i 1).val
      ∧ (i 1).val < win0_1.index (⟨(i 0).val / 256, ht⟩ : Fin cfg0.N) (1 : Fin 2) * 4096 + 4096
    omega

/-- After all 16 points the output window's array is the requantised weight matrix of the contents the region
    found in the weight matrix's array. -/
theorem final0 (c : Dev nD) : (dat0 (F := Ideal) V c).arrAt 1 cfg0.N = Cert.Spec.deq (V c main_arg1) :=
  (dat0 (F := Ideal) V c).arrAt_eq_of_cover 1 (Cert.Spec.deq (V c main_arg1)) (fun t _ => flushed_eq V c t) cover

end Cert.Val0

end
-- ==== Proof.KI.Cover1.lean ====
/-
  The second kernel region: its output blocks tile the output.

  The grid is 16 × 4 × 4 and point t = 16 i + 4 j + k, so i = t / 16 and j = (t / 4) mod 4. The output block of
  point t is rows 1024 i … and columns 1024 j … of the output, written back at k = 3 only. Entry (r, q) of the output
  therefore lies in the block written back at the point with i = r / 1024, j = q / 1024, k = 3, and those 64 blocks
  tile the output: if every write-back writes its block of one matrix G, the output array ends as G.
-/
import proofs.«101650_j25984552141356_1_alg».proof.Proof.KI.R1
import Idealize.ShloMosaic.Lib.Pipeline.Value
import Idealize.ShloMosaic.PureOps.Ideal

noncomputable section

namespace Cert.Cover1

open Cert.KernelIdeal Cert.KernelIdeal.Gen Cert.KernelIdeal.Gen.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output window's index map over the 256 grid points, in closed form: block (t / 16, (t / 4) mod 4). -/
theorem idx_out : ∀ t : Fin cfg1.N, win1_4.index t (0 : Fin 2) = t.val / 16
    ∧ win1_4.index t (1 : Fin 2) = (t.val / 4) % 4 :=
  (by decide +kernel : ∀ t : Fin grid1.N, _)

/-- An index of the output is in point t's block iff each coordinate is in the block's range on its axis. -/
theorem mem_blk (t : Fin cfg1.N) (i : S16384x4096.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v4).slice (win1_4.rect t)).set ↔ _
  rw [View.set_slice_whole, Rect.mem_set_unit]
  exact Iff.rfl

/-- Every index of the output is in the block of a point that writes back: entry (r, q) in that of the point
    16 (r / 1024) + 4 (q / 1024) + 3. -/
theorem cover (i : S16384x4096.Idx) :
    ∃ t : Fin cfg1.N, (cfg1.win 4).flush t = true ∧ i ∈ ((cfg1.win 4).blk t).view.set := by
  have h0 : (i 0).val < 16384 := (i 0).isLt
  have h1 : (i 1).val < 4096 := (i 1).isLt
  have ht : 16 * ((i 0).val / 1024) + 4 * ((i 1).val / 1024) + 3 < 256 := by omega
  obtain ⟨e8, e9⟩ := idx_out (⟨16 * ((i 0).val / 1024) + 4 * ((i 1).val / 1024) + 3, ht⟩ : Fin cfg1.N)
  have e8' : win1_4.index (⟨16 * ((i 0).val / 1024) + 4 * ((i 1).val / 1024) + 3, ht⟩ : Fin cfg1.N) (0 : Fin 2)
      = (16 * ((i 0).val / 1024) + 4 * ((i 1).val / 1024) + 3) / 16 := e8
  have e9' : win1_4.index (⟨16 * ((i 0).val / 1024) + 4 * ((i 1).val / 1024) + 3, ht⟩ : Fin cfg1.N) (1 : Fin 2)
      = ((16 * ((i 0).val / 1024) + 4 * ((i 1).val / 1024) + 3) / 4) % 4 := e9
  refine ⟨⟨16 * ((i 0).val / 1024) + 4 * ((i 1).val / 1024) + 3, ht⟩, (flush1_4 _).mpr ?_, ?_⟩
  · show (16 * ((i 0).val / 1024) + 4 * ((i 1).val / 1024) + 3) % 4 = 3
    omega
  rw [mem_blk]
  intro a
  match a with
  | ⟨0, _⟩ =>
    show win1_4.index (⟨16 * ((i 0).val / 1024) + 4 * ((i 1).val / 1024) + 3, ht⟩ : Fin cfg1.N) (0 : Fin 2) * 1024 ≤ (i 0).val
      ∧ (i 0).val < win1_4.index (⟨16 * ((i 0).val / 1024) + 4 * ((i 1).val / 1024) + 3, ht⟩ : Fin cfg1.N) (0 : Fin 2) * 1024 + 1024
    omega
  | ⟨1, _⟩ =>
    show win1_4.index (⟨16 * ((i 0).val / 1024) + 4 * ((i 1).val / 1024) + 3, ht⟩ : Fin cfg1.N) (1 : Fin 2) * 1024 ≤ (i 1).val
      ∧ (i 1).val < win1_4.index (⟨16 * ((i 0).val / 1024) + 4 * ((i 1).val / 1024) + 3, ht⟩ : Fin cfg1.N) (1 : Fin 2) * 1024 + 1024
    omega

/-- If every point that writes back (k = 3) writes its block of one matrix G, the output array ends as G. -/
theorem final1_of_flushed (c : Dev nD) (G : (⟨2, ![16384, 4096]⟩ : Shape).Idx → EReal)
    (hfl : ∀ t : Fin cfg1.N, t.val % 4 = 3 →
      (dat1 (F := Ideal) V c).flushed 4 t = ((cfg1.win 4).blk t).view.read (Elt Ideal) G) :
    (dat1 (F := Ideal) V c).arrAt 4 cfg1.N = G :=
  (dat1 (F := Ideal) V c).arrAt_eq_of_cover 4 G (fun t hf => hfl t ((flush1_4 t).mp hf)) cover

end Cert.Cover1

end
-- ==== Proof.SumBlocks.lean ====
/-
  Partial sums over four blocks of 1024 positions.

  A sum over 4096 positions taken in four consecutive blocks of 1024: the partial sum over the first 1024 · n
  positions is zero for n = 0, grows by the n-th block's sum at each step, and is the whole sum for n = 4. Only the
  laws of a commutative monoid under addition are used, so nothing is asked of the terms (they may be infinite).
-/
import Mathlib.Data.EReal.Basic
import Mathlib.Algebra.BigOperators.Fin

open scoped BigOperators

namespace Cert.SumBlocks

/-- The sum of f over the first 1024 · n positions, for n at most 4. -/
noncomputable def part (f : Fin 4096 → EReal) (n : ℕ) (hn : n ≤ 4) : EReal :=
  ∑ k : Fin (1024 * n), f ⟨k.val, by have := k.isLt; omega⟩

/-- A sum over an index set of no elements is zero. -/
theorem sum_fin_of_eq_zero {m : ℕ} (hm : m = 0) (g : Fin m → EReal) : ∑ k : Fin m, g k = 0 := by
  subst hm
  exact Fin.sum_univ_zero g

/-- Over no block the partial sum is zero. -/
theorem part_zero (f : Fin 4096 → EReal) : part f 0 (by omega) = 0 :=
  sum_fin_of_eq_zero (Nat.mul_zero 1024) _

/-- One more block: the first 1024 · (n + 1) positions are the first 1024 · n followed by the 1024 positions
    1024 · n + k, and the sum splits accordingly. -/
theorem part_succ (f : Fin 4096 → EReal) (n : ℕ) (hn : n + 1 ≤ 4) :
    part f (n + 1) hn
      = part f n (by omega) + ∑ k : Fin 1024, f ⟨1024 * n + k.val, by have := k.isLt; omega⟩ := by
  have h : 1024 * n + 1024 = 1024 * (n + 1) := by omega
  unfold part
  refine (Fin.sum_congr' (fun k : Fin (1024 * (n + 1)) => f ⟨k.val, by have := k.isLt; omega⟩) h).symm.trans ?_
  exact Fin.sum_univ_add _

/-- All four blocks: the whole sum. -/
theorem part_four (f : Fin 4096 → EReal) : part f 4 le_rfl = ∑ k : Fin 4096, f k :=
  Fin.sum_congr' f (by norm_num : 1024 * 4 = 4096)

end Cert.SumBlocks
-- ==== Proof.KI.Val1.lean ====
/-
  The second kernel region's result as one function of the four arrays it reads.

  The grid is 16 × 4 × 4 and point n = 16 i + 4 j + k works on input rows 1024 i + p, output columns 1024 j + q and the
  contracted positions 1024 k + kk. Two running sums are carried from point to point: the first holds, at (p, q), the
  partial sum over the contracted positions seen so far of x (1024 i + p, ·) · ŵ (1024 j + q, ·), the second, at (p, u),
  the same with column u of the first low-rank factor. Both are reset at k = 0 and grow by one block of 1024 positions
  at each point, so after k = 3 they are the full sums over 4096 positions; there the output block is formed as the
  first sum plus twice the second sum's 16 coefficients against the second factor's columns 1024 j + q, which is the
  layer at (1024 i + p, 1024 j + q). The 64 blocks written back at k = 3 tile the output.
-/
import proofs.«101650_j25984552141356_1_alg».proof.Proof.KI.R1
import proofs.«101650_j25984552141356_1_alg».proof.Proof.KI.Cover1
import proofs.«101650_j25984552141356_1_alg».proof.Proof.PayVal
import proofs.«101650_j25984552141356_1_alg».proof.Proof.Spec
import proofs.«101650_j25984552141356_1_alg».proof.Proof.SumBlocks
import Idealize.ShloMosaic.Lib.Pipeline.Value
import Idealize.ShloMosaic.Lib.ValueIdx
import Idealize.ShloMosaic.Lib.Tactic

set_option maxRecDepth 16384

noncomputable section

open scoped BigOperators

namespace Cert.Val1

open Cert.KernelIdeal Cert.KernelIdeal.Gen Cert.KernelIdeal.Gen.Fr
open Idealize.ShloMosaic Idealize.ShloMosaic.TcCoe Idealize.SL.Sem Idealize.ShloMosaic.ValueIdx Idealize.ShloMosaic.Tactic
open Idealize.ShloMosaic.Pipeline (Dat)

/-- The zero offsets of the rectangle the body loads and stores through. -/
theorem hz : (![0, 0] : Fin 2 → Nat) = fun _ => 0 := funext fun a => by fin_cases a <;> rfl

/-! ## What each case's stores leave, for any float values -/

section
variable {F : FTy → Type} [FloatOps F]

/-- At k = 0 the first running sum ends at one step of the main product over the zero block: the reset is stored, read back, and the step stored over it. -/
theorem piece_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i)
    (x0 : Vec F S1024x1024 .bf16) (x1 : Vec F S1024x1024 .bf16) (x2 : Vec F S1024x16 .bf16) (x3 : Vec F S16x1024 .bf16) :
    sout1_A_0 c i arg3 harg3 arg4 harg4 arg5 harg5 arg6 harg6 arg7 harg7 arg8 harg8 arg9 harg9 hc0 hc1 x0 x1 x2 x3 = k1_pay3 (k1_pay1 (F := F)) x0 x1 := by
  unfold sout1_A_0
  rw [View.read_writes_eq_canon _ _ _ (scover1_A_0 c i arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1024) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- At k = 0 the second running sum ends at one step of the low-rank product over the zero block. -/
theorem piece_A_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond1_0 i) (hc1 : ¬cond1_1 i)
    (x0 : Vec F S1024x1024 .bf16) (x1 : Vec F S1024x1024 .bf16) (x2 : Vec F S1024x16 .bf16) (x3 : Vec F S16x1024 .bf16) :
    sout1_A_1 c i arg3 harg3 arg4 harg4 arg5 harg5 arg6 harg6 arg7 harg7 arg8 harg8 arg9 harg9 hc0 hc1 x0 x1 x2 x3 = k1_pay4 (k1_pay2 (F := F)) x0 x2 := by
  unfold sout1_A_1
  rw [View.read_writes_eq_canon _ _ _ (scover1_A_1 c i arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x16) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- For 0 < k < 3 the first running sum ends at one step of the main product over what the point before left. -/
theorem piece_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    sout1_B_0 c i arg3 harg3 arg4 harg4 arg5 harg5 arg6 harg6 arg7 harg7 arg8 harg8 arg9 harg9 hc0 hc1 x0 x1 x2 x3 xs0 xs1 = k1_pay3 xs0 x0 x1 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_cons_unit_zero (S := S1024x1024) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- For 0 < k < 3 the second running sum ends at one step of the low-rank product over what the point before left. -/
theorem piece_B_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : ¬cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    sout1_B_1 c i arg3 harg3 arg4 harg4 arg5 harg5 arg6 harg6 arg7 harg7 arg8 harg8 arg9 harg9 hc0 hc1 x0 x1 x2 x3 xs0 xs1 = k1_pay4 xs1 x0 x2 := by
  unfold sout1_B_1
  rw [View.read_writes_eq_canon _ _ _ (scover1_B_1 c i arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_cons_unit_zero (S := S1024x16) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- At k = 3 the first running sum ends at one step of the main product over what the point before left. -/
theorem piece_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    sout1_C_0 c i arg3 harg3 arg4 harg4 arg5 harg5 arg6 harg6 arg7 harg7 arg8 harg8 arg9 harg9 hc0 hc1 x0 x1 x2 x3 xs0 xs1 = k1_pay3 xs0 x0 x1 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero (S := S1024x1024) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- At k = 3 the second running sum ends at one step of the low-rank product over what the point before left. -/
theorem piece_C_1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    sout1_C_1 c i arg3 harg3 arg4 harg4 arg5 harg5 arg6 harg6 arg7 harg7 arg8 harg8 arg9 harg9 hc0 hc1 x0 x1 x2 x3 xs0 xs1 = k1_pay4 xs1 x0 x2 := by
  unfold sout1_C_1
  rw [View.read_writes_eq_canon _ _ _ (scover1_C_1 c i arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero (S := S1024x16) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

/-- At k = 3 the output block is the closing step over the two finished sums, each read back from its buffer after its last store. -/
theorem piece_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond1_0 i) (hc1 : cond1_1 i)
    (x0 : Vec F S1024x1024 .bf16) (x1 : Vec F S1024x1024 .bf16) (x2 : Vec F S1024x16 .bf16) (x3 : Vec F S16x1024 .bf16) (xs0 : Vec F S1024x1024 .f32) (xs1 : Vec F S1024x16 .f32) :
    out1_C_4 c i arg3 harg3 arg4 harg4 arg5 harg5 arg6 harg6 arg7 harg7 arg8 harg8 arg9 harg9 hc0 hc1 x0 x1 x2 x3 xs0 xs1 = k1_pay5 (k1_pay4 xs1 x0 x2) x3 (k1_pay3 xs0 x0 x1) := by
  unfold out1_C_4
  rw [View.read_writes_eq_canon _ _ _ (cover1_C_4 c i arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_cons_unit_zero (S := S1024x1024) hz]
  simp only [View.readAt_eq_ld, harg3.read_unread, harg4.read_unread, harg5.read_unread, harg6.read_unread, harg7.read_unread, harg8.read_unread, harg9.read_unread,
    View.ld_unit_zero (S := S1024x1024) hz, View.ld_unit_zero (S := S1024x16) hz, View.ld_unit_zero (S := S16x1024) hz,
    View.readCov_unit_zero (S := S1024x1024) _ hz, View.readCov_unit_zero (S := S1024x16) _ hz]

end

section AtIdeal

open Cert.SumBlocks

variable (V : (c : Dev nD) → (b : Ref sig .tc) → Buf (Elt Ideal) ((c : Thread nD τ).loc b))

/-! ## The arrays and their blocks -/

/-- The four arrays as the region finds them: the input x, the requantised weights ŵ, the two low-rank factors. -/
abbrev xarr (c : Dev nD) : Vec Ideal S16384x4096 .bf16 := V c main_v1
abbrev warr (c : Dev nD) : Vec Ideal S4096x4096 .bf16 := V c main_v0
abbrev aarr (c : Dev nD) : Vec Ideal S4096x16 .bf16 := V c main_v2
abbrev barr (c : Dev nD) : Vec Ideal S16x4096 .bf16 := V c main_v3
/-- Their blocks at point t. -/
abbrev xblk (c : Dev nD) (t : Fin cfg1.N) : Vec Ideal S1024x1024 .bf16 := iblk1 V c 0 t
abbrev wblk (c : Dev nD) (t : Fin cfg1.N) : Vec Ideal S1024x1024 .bf16 := iblk1 V c 1 t
abbrev ablk (c : Dev nD) (t : Fin cfg1.N) : Vec Ideal S1024x16 .bf16 := iblk1 V c 2 t
abbrev bblk (c : Dev nD) (t : Fin cfg1.N) : Vec Ideal S16x1024 .bf16 := iblk1 V c 3 t

/-- Point n = 16 i + 4 j + k works on input rows 1024 i + p, -/
def rowX (n : ℕ) (p : Fin 1024) : Fin 16384 := ⟨1024 * (n / 16 % 16) + p.val, by have := p.isLt; omega⟩
/-- output columns 1024 j + q, -/
def rowW (n : ℕ) (q : Fin 1024) : Fin 4096 := ⟨1024 * (n / 4 % 4) + q.val, by have := q.isLt; omega⟩
/-- and contracted positions 1024 k + kk. -/
def colK (n : ℕ) (kk : Fin 1024) : Fin 4096 := ⟨1024 * (n % 4) + kk.val, by have := kk.isLt; omega⟩

/-- The five index maps over the 256 grid points, with n = 16 i + 4 j + k: the input's block is (i, k), the weights'
    (j, k), the first factor's (k, 0), the second factor's (0, j), the output's (i, j). -/
theorem idx_facts : ∀ t : Fin cfg1.N,
    win1_0.index t (0 : Fin 2) = t.val / 16 % 16 ∧ win1_0.index t (1 : Fin 2) = t.val % 4
    ∧ win1_1.index t (0 : Fin 2) = t.val / 4 % 4 ∧ win1_1.index t (1 : Fin 2) = t.val % 4
    ∧ win1_2.index t (0 : Fin 2) = t.val % 4 ∧ win1_2.index t (1 : Fin 2) = 0
    ∧ win1_3.index t (0 : Fin 2) = 0 ∧ win1_3.index t (1 : Fin 2) = t.val / 4 % 4
    ∧ win1_4.index t (0 : Fin 2) = t.val / 16 % 16 ∧ win1_4.index t (1 : Fin 2) = t.val / 4 % 4 :=
  (by decide +kernel : ∀ t : Fin grid1.N, _)

/-- A block's entry is the array's entry at block index × block size + the coordinate inside the block. -/
theorem xblk_apply (c : Dev nD) (t : Fin cfg1.N) (p kk : Fin 1024) :
    xblk V c t (ix2 p kk) = xarr V c (ix2 (rowX t.val p) (colK t.val kk)) := by
  obtain ⟨e0, e1, -⟩ := idx_facts t
  show V c main_v1 (((cfg1.win 0).blk t).view.emb (ix2 p kk)) = _
  refine congrArg (V c main_v1) (funext fun a => Fin.ext ?_)
  match a with
  | ⟨0, _⟩ => show win1_0.index t (0 : Fin 2) * 1024 + 1 * p.val = 1024 * (t.val / 16 % 16) + p.val; omega
  | ⟨1, _⟩ => show win1_0.index t (1 : Fin 2) * 1024 + 1 * kk.val = 1024 * (t.val % 4) + kk.val; omega

theorem wblk_apply (c : Dev nD) (t : Fin cfg1.N) (q kk : Fin 1024) :
    wblk V c t (ix2 q kk) = warr V c (ix2 (rowW t.val q) (colK t.val kk)) := by
  obtain ⟨-, -, e0, e1, -⟩ := idx_facts t
  show V c main_v0 (((cfg1.win 1).blk t).view.emb (ix2 q kk)) = _
  refine congrArg (V c main_v0) (funext fun a => Fin.ext ?_)
  match a with
  | ⟨0, _⟩ => show win1_1.index t (0 : Fin 2) * 1024 + 1 * q.val = 1024 * (t.val / 4 % 4) + q.val; omega
  | ⟨1, _⟩ => show win1_1.index t (1 : Fin 2) * 1024 + 1 * kk.val = 1024 * (t.val % 4) + kk.val; omega

theorem ablk_apply (c : Dev nD) (t : Fin cfg1.N) (kk : Fin 1024) (u : Fin 16) :
    ablk V c t (ix2 kk u) = aarr V c (ix2 (colK t.val kk) u) := by
  obtain ⟨-, -, -, -, e0, e1, -⟩ := idx_facts t
  show V c main_v2 (((cfg1.win 2).blk t).view.emb (ix2 kk u)) = _
  refine congrArg (V c main_v2) (funext fun a => Fin.ext ?_)
  match a with
  | ⟨0, _⟩ => show win1_2.index t (0 : Fin 2) * 1024 + 1 * kk.val = 1024 * (t.val % 4) + kk.val; omega
  | ⟨1, _⟩ => show win1_2.index t (1 : Fin 2) * 16 + 1 * u.val = u.val; omega

theorem bblk_apply (c : Dev nD) (t : Fin cfg1.N) (u : Fin 16) (q : Fin 1024) :
    bblk V c t (ix2 u q) = barr V c (ix2 u (rowW t.val q)) := by
  obtain ⟨-, -, -, -, -, -, e0, e1, -⟩ := idx_facts t
  show V c main_v3 (((cfg1.win 3).blk t).view.emb (ix2 u q)) = _
  refine congrArg (V c main_v3) (funext fun a => Fin.ext ?_)
  match a with
  | ⟨0, _⟩ => show win1_3.index t (0 : Fin 2) * 16 + 1 * u.val = u.val; omega
  | ⟨1, _⟩ => show win1_3.index t (1 : Fin 2) * 1024 + 1 * q.val = 1024 * (t.val / 4 % 4) + q.val; omega

/-! ## What each case leaves, over the point's blocks -/

theorem sum0_A (c : Dev nD) (t : Fin cfg1.N) (h0 : t.val % 4 = 0) (h1 : ¬t.val % 4 = 3) :
    (outsAt1 V c t.val t.isLt).2.1 = k1_pay3 (k1_pay1 (F := Ideal)) (xblk V c t) (wblk V c t) := by
  rw [outsAt1_A V c t h0 h1]; dsimp only
  exact piece_A_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

theorem sum1_A (c : Dev nD) (t : Fin cfg1.N) (h0 : t.val % 4 = 0) (h1 : ¬t.val % 4 = 3) :
    (outsAt1 V c t.val t.isLt).2.2 = k1_pay4 (k1_pay2 (F := Ideal)) (xblk V c t) (ablk V c t) := by
  rw [outsAt1_A V c t h0 h1]; dsimp only
  exact piece_A_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

theorem sum0_B (c : Dev nD) (t : Fin cfg1.N) (h0 : ¬t.val % 4 = 0) (h1 : ¬t.val % 4 = 3) :
    (outsAt1 V c t.val t.isLt).2.1 = k1_pay3 (prevAt1 V c t).2.1 (xblk V c t) (wblk V c t) := by
  rw [outsAt1_B V c t h0 h1]; dsimp only
  exact piece_B_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2

theorem sum1_B (c : Dev nD) (t : Fin cfg1.N) (h0 : ¬t.val % 4 = 0) (h1 : ¬t.val % 4 = 3) :
    (outsAt1 V c t.val t.isLt).2.2 = k1_pay4 (prevAt1 V c t).2.2 (xblk V c t) (ablk V c t) := by
  rw [outsAt1_B V c t h0 h1]; dsimp only
  exact piece_B_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (prevAt1 V c t).2.1 (prevAt1 V c t).2.2

theorem sum0_C (c : Dev nD) (t : Fin cfg1.N) (h0 : ¬t.val % 4 = 0) (h1 : t.val % 4 = 3) :
    (outsAt1 V c t.val t.isLt).2.1 = k1_pay3 (prevAt1 V c t).2.1 (xblk V c t) (wblk V c t) := by
  rw [outsAt1_C V c t h0 h1]; dsimp only
  exact piece_C_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2

theorem sum1_C (c : Dev nD) (t : Fin cfg1.N) (h0 : ¬t.val % 4 = 0) (h1 : t.val % 4 = 3) :
    (outsAt1 V c t.val t.isLt).2.2 = k1_pay4 (prevAt1 V c t).2.2 (xblk V c t) (ablk V c t) := by
  rw [outsAt1_C V c t h0 h1]; dsimp only
  exact piece_C_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2

theorem out_C (c : Dev nD) (t : Fin cfg1.N) (h0 : ¬t.val % 4 = 0) (h1 : t.val % 4 = 3) :
    (outsAt1 V c t.val t.isLt).1
      = k1_pay5 (k1_pay4 (prevAt1 V c t).2.2 (xblk V c t) (ablk V c t)) (bblk V c t) (k1_pay3 (prevAt1 V c t).2.1 (xblk V c t) (wblk V c t)) := by
  rw [outsAt1_C V c t h0 h1]; dsimp only
  exact piece_C_4 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (prevAt1 V c t).2.1 (prevAt1 V c t).2.2

end AtIdeal

section Sums

open Cert.SumBlocks

variable (V : (c : Dev nD) → (b : Ref sig .tc) → Buf (Elt Ideal) ((c : Thread nD τ).loc b))

/-! ## The running sums -/

/-- The main product's summand at contracted position kk, for row r of x and row s of ŵ. -/
def fW (c : Dev nD) (r : Fin 16384) (s : Fin 4096) : Fin 4096 → EReal :=
  fun kk => xarr V c (ix2 r kk) * warr V c (ix2 s kk)
/-- The low-rank coefficient's summand at contracted position kk, for row r of x and coefficient u. -/
def fA (c : Dev nD) (r : Fin 16384) (u : Fin 16) : Fin 4096 → EReal :=
  fun kk => xarr V c (ix2 r kk) * aarr V c (ix2 kk u)

/-- A partial sum does not depend on how the number of blocks is written. -/
theorem part_eq (f : Fin 4096 → EReal) {m m' : ℕ} (e : m = m') (hm : m ≤ 4) (hm' : m' ≤ 4) :
    part f m hm = part f m' hm' := by subst e; rfl

/-- A partial sum over m blocks plus the sum over block m is the partial sum over m + 1 blocks. -/
theorem part_step (f : Fin 4096 → EReal) (m : ℕ) (hm : m + 1 ≤ 4) (acc : EReal) (hacc : acc = part f m (by omega))
    (g : Fin 1024 → EReal) (hg : ∀ kk : Fin 1024, g kk = f ⟨1024 * m + kk.val, by have := kk.isLt; omega⟩) :
    acc + ∑ kk : Fin 1024, g kk = part f (m + 1) hm := by
  rw [part_succ f m hm, hacc]
  exact congrArg (fun s => part f m (by omega) + s) (Finset.sum_congr rfl fun kk _ => hg kk)

/-- After point n = 16 i + 4 j + k the first running sum holds, at (p, q), the sum over the first 1024 (k + 1)
    contracted positions of x (1024 i + p, ·) · ŵ (1024 j + q, ·), and the second, at (p, u), the same with the first
    factor's column u in place of the weights' row. -/
def SumsAt (c : Dev nD) (n : ℕ) (h : n < cfg1.N) : Prop :=
  (∀ p q : Fin 1024, (outsAt1 V c n h).2.1 (ix2 p q) = part (fW V c (rowX n p) (rowW n q)) (n % 4 + 1) (by omega))
  ∧ (∀ (p : Fin 1024) (u : Fin 16), (outsAt1 V c n h).2.2 (ix2 p u) = part (fA V c (rowX n p) u) (n % 4 + 1) (by omega))

/-- At k = 0 both sums are the first block's sum over zero. -/
theorem sums_reset (c : Dev nD) (t : Fin cfg1.N) (h0 : t.val % 4 = 0) : SumsAt V c t.val t.isLt := by
  have h1 : ¬t.val % 4 = 3 := by omega
  refine ⟨fun p q => ?_, fun p u => ?_⟩
  · rw [sum0_A V c t h0 h1, Cert.PayVal.pay3_apply, Cert.PayVal.pay1_apply]
    refine part_step (fW V c (rowX t.val p) (rowW t.val q)) (t.val % 4) (by omega) 0 ?_ _ (fun kk => ?_)
    · exact (part_zero _).symm.trans (part_eq _ (by omega) _ _)
    · rw [xblk_apply, wblk_apply]; rfl
  · rw [sum1_A V c t h0 h1, Cert.PayVal.pay4_apply, Cert.PayVal.pay2_apply]
    refine part_step (fA V c (rowX t.val p) u) (t.val % 4) (by omega) 0 ?_ _ (fun kk => ?_)
    · exact (part_zero _).symm.trans (part_eq _ (by omega) _ _)
    · rw [xblk_apply, ablk_apply]; rfl

/-- At k > 0 each sum is what the point before left plus this point's block: the point before has the same i and j
    and one block fewer. -/
theorem sums_step (c : Dev nD) (t : Fin cfg1.N) (h0 : ¬t.val % 4 = 0)
    (ih : SumsAt V c (t.val - 1) (Nat.lt_of_le_of_lt (Nat.sub_le _ _) t.isLt)) : SumsAt V c t.val t.isLt := by
  have hN : t.val < 256 := lt_of_lt_of_eq t.isLt (show cfg1.N = 256 from N_1)
  have hs0 : (outsAt1 V c t.val t.isLt).2.1 = k1_pay3 (prevAt1 V c t).2.1 (xblk V c t) (wblk V c t) := by
    by_cases h1 : t.val % 4 = 3
    · exact sum0_C V c t h0 h1
    · exact sum0_B V c t h0 h1
  have hs1 : (outsAt1 V c t.val t.isLt).2.2 = k1_pay4 (prevAt1 V c t).2.2 (xblk V c t) (ablk V c t) := by
    by_cases h1 : t.val % 4 = 3
    · exact sum1_C V c t h0 h1
    · exact sum1_B V c t h0 h1
  refine ⟨fun p q => ?_, fun p u => ?_⟩
  · rw [hs0, Cert.PayVal.pay3_apply]
    refine part_step (fW V c (rowX t.val p) (rowW t.val q)) (t.val % 4) (by omega) _ ?_ _ (fun kk => ?_)
    · have e := ih.1 p q
      have er : rowX (t.val - 1) p = rowX t.val p :=
        Fin.ext (by show 1024 * ((t.val - 1) / 16 % 16) + p.val = 1024 * (t.val / 16 % 16) + p.val; omega)
      have es : rowW (t.val - 1) q = rowW t.val q :=
        Fin.ext (by show 1024 * ((t.val - 1) / 4 % 4) + q.val = 1024 * (t.val / 4 % 4) + q.val; omega)
      rw [er, es] at e
      exact e.trans (part_eq _ (by omega) _ _)
    · rw [xblk_apply, wblk_apply]; rfl
  · rw [hs1, Cert.PayVal.pay4_apply]
    refine part_step (fA V c (rowX t.val p) u) (t.val % 4) (by omega) _ ?_ _ (fun kk => ?_)
    · have e := ih.2 p u
      have er : rowX (t.val - 1) p = rowX t.val p :=
        Fin.ext (by show 1024 * ((t.val - 1) / 16 % 16) + p.val = 1024 * (t.val / 16 % 16) + p.val; omega)
      rw [er] at e
      exact e.trans (part_eq _ (by omega) _ _)
    · rw [xblk_apply, ablk_apply]; rfl

/-- The running sums after every point, by induction on the point. -/
theorem sums (c : Dev nD) : ∀ (n : ℕ) (h : n < cfg1.N), SumsAt V c n h := by
  intro n
  induction n with
  | zero => intro h; exact sums_reset V c ⟨0, h⟩ rfl
  | succ n ih =>
    intro h
    by_cases h0 : (n + 1) % 4 = 0
    · exact sums_reset V c ⟨n + 1, h⟩ h0
    · exact sums_step V c ⟨n + 1, h⟩ h0 (ih (Nat.lt_of_succ_lt h))

/-! ## What a point with k = 3 writes back -/

/-- At k = 3 the output block is the layer at rows 1024 i + p and columns 1024 j + q: both sums are complete, and the
    closing step adds twice the coefficients against the second factor's columns 1024 j + q. -/
theorem flushed_eq (c : Dev nD) (t : Fin cfg1.N) (h3 : t.val % 4 = 3) :
    (dat1 (F := Ideal) V c).flushed 4 t
      = ((cfg1.win 4).blk t).view.read (Elt Ideal)
          (Cert.Spec.lin (V c main_v1) (V c main_v0) (V c main_v2) (V c main_v3)) := by
  have h0 : ¬t.val % 4 = 0 := by omega
  obtain ⟨-, -, -, -, -, -, -, -, e0, e1⟩ := idx_facts t
  show (cfg1.win 4).cut (grid1.coords t) ((dat1 V c).after 4 t) = _
  rw [after1_4]
  funext j
  obtain ⟨p, q, rfl⟩ : ∃ (p q : Fin 1024), j = ix2 p q := ⟨j 0, j 1, eq_ix2 j⟩
  show (outsAt1 V c t.val t.isLt).1 (ix2 p q)
    = Cert.Spec.lin (V c main_v1) (V c main_v0) (V c main_v2) (V c main_v3) (((cfg1.win 4).blk t).view.emb (ix2 p q))
  have hemb : ((cfg1.win 4).blk t).view.emb (ix2 p q) = ix2 (rowX t.val p) (rowW t.val q) :=
    funext fun a => Fin.ext (by
      match a with
      | ⟨0, _⟩ => show win1_4.index t (0 : Fin 2) * 1024 + 1 * p.val = 1024 * (t.val / 16 % 16) + p.val; omega
      | ⟨1, _⟩ => show win1_4.index t (1 : Fin 2) * 1024 + 1 * q.val = 1024 * (t.val / 4 % 4) + q.val; omega)
  rw [hemb, Cert.Spec.lin_ix2]
  have hout : (outsAt1 V c t.val t.isLt).1
      = k1_pay5 (outsAt1 V c t.val t.isLt).2.2 (bblk V c t) (outsAt1 V c t.val t.isLt).2.1 := by
    rw [out_C V c t h0 h3, sum0_C V c t h0 h3, sum1_C V c t h0 h3]
  obtain ⟨s0, s1⟩ := sums V c t.val t.isLt
  have hm : t.val % 4 + 1 = 4 := by omega
  have a0 : (outsAt1 V c t.val t.isLt).2.1 (ix2 p q)
      = ∑ k : Fin 4096, xarr V c (ix2 (rowX t.val p) k) * warr V c (ix2 (rowW t.val q) k) :=
    (s0 p q).trans ((part_eq _ hm _ le_rfl).trans (part_four _))
  have a1 : ∀ u : Fin 16, (outsAt1 V c t.val t.isLt).2.2 (ix2 p u)
      = ∑ k : Fin 4096, xarr V c (ix2 (rowX t.val p) k) * aarr V c (ix2 k u) :=
    fun u => (s1 p u).trans ((part_eq _ hm _ le_rfl).trans (part_four _))
  rw [hout, Cert.PayVal.pay5_apply, a0]
  refine congrArg (fun s => _ + Ideal.ofBits .f32 0x40000000#32 * s) (Finset.sum_congr rfl fun u _ => ?_)
  rw [a1 u, bblk_apply]

end Sums

section Final
variable (V : (c : Dev nD) → (b : Ref sig .tc) → Buf (Elt Ideal) ((c : Thread nD τ).loc b))

/-- After all 256 points the output array is the layer of the four arrays as the region found them: x · ŵᵀ plus twice
    (x · A) · B. -/
theorem final1 (c : Dev nD) :
    (dat1 (F := Ideal) V c).arrAt 4 cfg1.N = Cert.Spec.lin (V c main_v1) (V c main_v0) (V c main_v2) (V c main_v3) :=
  Cert.Cover1.final1_of_flushed V c (Cert.Spec.lin (V c main_v1) (V c main_v0) (V c main_v2) (V c main_v3)) (fun t h3 => flushed_eq V c t h3)
end Final

end Cert.Val1

end
-- ==== Proof.Glue.lean ====
/-
  The idealized program's result is the layer's specification.

  Over the extended reals a change of float format is the identity, so the three narrowed copies the host makes of the
  input and of the two low-rank factors are those arrays themselves; the weight array the second region reads is what
  the first region's write-backs left, the requantised weight matrix; and what the second region's write-backs leave
  in the result array is the layer applied to those four. Composed: the result array is the specification of the four
  argument arrays as launched.
-/
import proofs.«101650_j25984552141356_1_alg».proof.Proof.KI.Run
import proofs.«101650_j25984552141356_1_alg».proof.Proof.KI.Val0
import proofs.«101650_j25984552141356_1_alg».proof.Proof.KI.Val1
import proofs.«101650_j25984552141356_1_alg».proof.Proof.Spec
import Idealize.ShloMosaic.Lib.StableHlo.Run

noncomputable section

namespace Cert.Glue

open Idealize.ShloMosaic Idealize.ShloMosaic.TcCoe Idealize.SL.Sem
open Cert.KernelIdeal Cert.KernelIdeal.Gen Cert.KernelIdeal.Gen.Fr

variable (m : (ℓ : Loc nD τ sig) → Buf (Elt Ideal) ℓ) (ρ : Dev nD → PrngReg)

/-- The narrowed input the second region reads is the input as launched. -/
theorem E2_v1 (c : Dev nD) : E2 (F := Ideal) m ρ c main_v1 = m ((c : Thread nD τ).loc main_arg0) := by
  show StableHlo.after hostOps1 (B1 m ρ c) (Proc.devRef .tc main_v1) = _
  after_results
  rw [B1_of_ne m ρ c main_arg0 (by decide)]
  rfl

/-- The narrowed first factor is the first factor as launched. -/
theorem E2_v2 (c : Dev nD) : E2 (F := Ideal) m ρ c main_v2 = m ((c : Thread nD τ).loc main_arg2) := by
  show StableHlo.after hostOps1 (B1 m ρ c) (Proc.devRef .tc main_v2) = _
  after_results
  rw [B1_of_ne m ρ c main_arg2 (by decide)]
  rfl

/-- The narrowed second factor is the second factor as launched. -/
theorem E2_v3 (c : Dev nD) : E2 (F := Ideal) m ρ c main_v3 = m ((c : Thread nD τ).loc main_arg3) := by
  show StableHlo.after hostOps1 (B1 m ρ c) (Proc.devRef .tc main_v3) = _
  after_results
  rw [B1_of_ne m ρ c main_arg3 (by decide)]
  rfl

/-- The weight array the second region reads is the requantised weight matrix of the weights as launched. -/
theorem E2_v0 (c : Dev nD) : E2 (F := Ideal) m ρ c main_v0 = Cert.Spec.deq (m ((c : Thread nD τ).loc main_arg1)) := by
  show StableHlo.after hostOps1 (B1 m ρ c) (Proc.devRef .tc main_v0) = _
  after_results
  exact (B1_arr m ρ c 1).trans (Cert.Val0.final0 (E0 m ρ) c)

/-- The idealized program runs, and ends with the result array at the specification of the argument arrays and the
    argument arrays as launched. -/
theorem kernel_run : θ_run (defs (F := Ideal)) (onTc (τ := τ) (main (F := Ideal))) ⟨m, fun _ => 0, ρ⟩ (fun r => ∀ c : Dev nD,
      r.2.mem ((c.tc : Thread nD τ).loc main_v4) = Cert.Spec.fin (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨by
      rw [(h c).1, Cert.Val1.final1 (E2 m ρ) c, E2_v1 m ρ c, E2_v0 m ρ c, E2_v2 m ρ c, E2_v3 m ρ c]
      rfl, (h c).2⟩) (run_result m ρ)

end Cert.Glue

end
-- ==== Proof.RefSpec.lean ====
/-
  The reference program's result, read index by index, is the layer's specification.
-/
import proofs.«101650_j25984552141356_1_alg».proof.Proof.Gen.ReferenceIdeal.Read
import proofs.«101650_j25984552141356_1_alg».proof.Proof.Spec
import proofs.«101650_j25984552141356_1_alg».proof.Proof.LibDot
import proofs.«101650_j25984552141356_1_alg».proof.Proof.LibRowRead

noncomputable section

open scoped BigOperators

namespace Cert.RefSpec

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The column axis of the weight matrix drops to leave one entry per row. -/
theorem reduces_rows : S4096x4096.Reduces [1] S4096 := by decide

/-- The clip's upper bound: the signed 32-bit word 127, made a float, is the real 127. -/
theorem hi_bound : FloatOps.sitofp (F := Ideal) .f32 (127#32 : BitVec 32) = ((127 : ℝ) : EReal) := by
  show (((127#32 : BitVec 32).toInt : ℝ) : EReal) = _
  have h : (127#32 : BitVec 32).toInt = 127 := by decide
  rw [h]; norm_num

/-- The clip's lower bound: the signed 32-bit word 2^32 − 128, made a float, is the real −128. -/
theorem lo_bound : FloatOps.sitofp (F := Ideal) .f32 (4294967168#32 : BitVec 32) = ((-128 : ℝ) : EReal) := by
  show (((4294967168#32 : BitVec 32).toInt : ℝ) : EReal) = _
  have h : (4294967168#32 : BitVec 32).toInt = -128 := by decide
  rw [h]; norm_num

/-- The reduced vector at row p is the row's largest magnitude: the fold of max from −∞ over max (w, −w), w ranging
    over the 4096 entries (p, k) of the row; the magnitude of an extended real w is max (w, −w). -/
theorem v1_row (x1 : (⟨S4096x4096, .f32⟩ : BufTy).Contents (Elt Ideal)) (p : Fin 4096) :
    val_main_v1 (F := Ideal) x1 (ix1 p) = Cert.Spec.rowMax (fun k => x1 (ix2 p k)) := by
  unfold val_main_v1 val_main_cst
  exact (Cert.LibRowRead.hostReduceMax_row (val_main_v0 (F := Ideal) x1) 0xFF800000#32 reducesTo_S4096x4096_S4096_d1
    reduces_rows h_S_ p).trans rfl

/-- The scale column at (p, 0) is row p's scale: the row's largest magnitude over 127. The column's entry (p, 0) reads
    the reduced vector at p, and the divisor is the same word at every index. -/
theorem v4_entry (x1 : (⟨S4096x4096, .f32⟩ : BufTy).Contents (Elt Ideal)) (p : Fin 4096) (z : Fin 1) :
    val_main_v4 (F := Ideal) x1 (ix2 p z) = Cert.Spec.scale (fun k => x1 (ix2 p k)) := by
  have e2 : idx_main_v2 (ix2 p z) = ix1 p := funext fun a => by match a with | ⟨0, _⟩ => rfl
  rw [val_main_v4_apply, val_main_v2_apply, val_main_v3_apply, val_main_cst_0_apply, e2, v1_row]
  rfl

/-- The requantised weight at (p, q): the entry over (scale + ε), rounded half to even, clipped to [−128, 127], times
    the scale. Both spreads of a 4096 × 1 column along the rows read, at (p, q), the column's entry (p, 0); the two
    clip bounds are the reals −128 and 127. -/
theorem v12_entry (x1 : (⟨S4096x4096, .f32⟩ : BufTy).Contents (Elt Ideal)) (p q : Fin 4096) :
    val_main_v12 (F := Ideal) x1 (ix2 p q) = Cert.Spec.deqRow (fun k => x1 (ix2 p k)) q := by
  have e7 : idx_main_v7 (ix2 p q) = ix2 p (0 : Fin 1) := funext fun a => by match a with | ⟨0, _⟩ => rfl | ⟨1, _⟩ => rfl
  have e11 : idx_main_v11 (ix2 p q) = ix2 p (0 : Fin 1) := funext fun a => by match a with | ⟨0, _⟩ => rfl | ⟨1, _⟩ => rfl
  rw [val_main_v12_apply, val_main_v10_apply, val_main_call1_v4_apply, val_main_call1_v3_apply, val_main_c_2_apply,
    val_main_call1_v2_apply, val_main_call1_v1_apply, val_main_call1_v0_apply, val_main_c_apply, val_main_v9_apply,
    val_main_v8_apply, val_main_v7_apply, val_main_v6_apply, val_main_v5_apply, val_main_cst_1_apply, val_main_v11_apply,
    e7, e11, v4_entry, hi_bound, lo_bound]
  rfl

/-- The reference's result, entry by entry, is the layer's specification. At (t, o) the first product sums over
    k < 4096 the input's (t, k) against the TRANSPOSED requantised weights at (k, o), which is the requantised weight
    (o, k); the low-rank term sums over r < 16 the coefficient ∑ k, x (t, k) · a (k, r) against b (r, o), and is
    doubled by the word 2.0 spread over the whole result. -/
theorem ref_value (x0 : (⟨S16384x4096, .f32⟩ : BufTy).Contents (Elt Ideal)) (x1 : (⟨S4096x4096, .f32⟩ : BufTy).Contents (Elt Ideal))
    (x2 : (⟨S4096x16, .f32⟩ : BufTy).Contents (Elt Ideal)) (x3 : (⟨S16x4096, .f32⟩ : BufTy).Contents (Elt Ideal)) :
    val_main_v19 (F := Ideal) x0 x1 x2 x3 = Cert.Spec.fin x0 x1 x2 x3 := by
  funext i
  obtain ⟨t, o, rfl⟩ : ∃ (t : Fin 16384) (o : Fin 4096), i = ix2 t o := ⟨i 0, i 1, eq_ix2 i⟩
  -- the first product's left operand at (t, o), k is the input's (t, k)
  have el14 : ∀ k : Fin 4096, lidx_main_v14 (ix2 t o) k = ix2 t k := fun k =>
    funext fun a => by match a with | ⟨0, _⟩ => rfl | ⟨1, _⟩ => rfl
  -- its right operand at (k, o), read through the transpose, is the requantised weight (o, k)
  have er14 : ∀ k : Fin 4096, idx_main_v13 (ridx_main_v14 (ix2 t o) k) = ix2 o k := fun k =>
    funext fun a => by match a with | ⟨0, _⟩ => rfl | ⟨1, _⟩ => rfl
  -- the coefficient (t, r) of the low-rank term sums the input's (t, k) against the first factor's (k, r)
  have el15 : ∀ (r : Fin 16) (k : Fin 4096), lidx_main_v15 (lidx_main_v16 (ix2 t o) r) k = ix2 t k := fun r k =>
    funext fun a => by match a with | ⟨0, _⟩ => rfl | ⟨1, _⟩ => rfl
  have er15 : ∀ (r : Fin 16) (k : Fin 4096), ridx_main_v15 (lidx_main_v16 (ix2 t o) r) k = ix2 k r := fun r k =>
    funext fun a => by match a with | ⟨0, _⟩ => rfl | ⟨1, _⟩ => rfl
  -- and is contracted with the second factor's (r, o)
  have er16 : ∀ r : Fin 16, ridx_main_v16 (ix2 t o) r = ix2 r o := fun r =>
    funext fun a => by match a with | ⟨0, _⟩ => rfl | ⟨1, _⟩ => rfl
  rw [val_main_v19_apply, val_main_v14_apply, val_main_v18_apply, val_main_v17_apply, val_main_cst_3_apply, val_main_v16_apply]
  simp only [val_main_v13_apply, val_main_v15_apply, el14, er14, el15, er15, er16, v12_entry]
  rfl

/-- Every weakly fair execution of the reference ends with its result buffer at the layer's specification of the four
    argument arrays as the run found them, and with the arguments unchanged: the run's composed term is rewritten to
    the specification by the entrywise reading above. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v19)
          = Cert.Spec.fin (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((val_main_v19_eq (F := Ideal) _ _ _ _).trans (ref_value _ _ _ _)), (h c).2⟩)
    (Cert.ReferenceIdeal.Value.run (F := Ideal) m' g')

end Cert.RefSpec

end
-- ==== Proof.lean ====
/-
  A linear layer with per-row 8-bit requantised weights and a rank-16 correction, as two kernel regions, against its
  plain reference: the two compute one function of the four argument arrays over the extended reals.

  The first region replaces every weight row by its requantised version (each row's scale is its largest magnitude
  over 127; entries are divided by the scale plus a small constant, rounded half to even, clipped to [−128, 127] and
  multiplied back by the scale). The second region computes, block by block, the product of the input rows with the
  requantised weight rows, accumulated over four blocks of the contracted axis, and adds twice the product of the
  input's 16 low-rank coefficients (accumulated the same way) with the second factor. The reference spells the same
  function with whole-array operations. Changes of float format are the identity over the extended reals, the matrix
  unit's product into a zero accumulator is the plain contraction, and splitting a contraction of 4096 terms into four
  runs of 1024 is a regrouping of a finite sum in a commutative monoid: no finiteness of the inputs is needed.

  The frames of the two kernel programs (word level and idealized) are the same argument, written once for any float
  instance: the first region keeps nothing between grid points; the second keeps its two running sums, which the
  region's invariant names from each point to the next. The reference has no kernel; its frame is its run with the
  result dropped.
-/
import proofs.«101650_j25984552141356_1_alg».proof.Defs
import proofs.«101650_j25984552141356_1_alg».proof.Proof.K.Run
import proofs.«101650_j25984552141356_1_alg».proof.Proof.KI.Run
import proofs.«101650_j25984552141356_1_alg».proof.Proof.Glue
import proofs.«101650_j25984552141356_1_alg».proof.Proof.RefSpec
import proofs.«101650_j25984552141356_1_alg».proof.Proof.Gen.Kernel
import proofs.«101650_j25984552141356_1_alg».proof.Proof.Gen.KernelIdeal
import proofs.«101650_j25984552141356_1_alg».proof.Proof.Gen.ReferenceIdeal
import proofs.«101650_j25984552141356_1_alg».proof.Proof.Gen.ReferenceIdeal.Run
import proofs.«101650_j25984552141356_1_alg».proof.Proof.Gen.Pre_finite_inputs

noncomputable section

namespace Cert.Proof

open Idealize.ShloMosaic Idealize.SL.Sem

/-- The word-level program runs and leaves its arguments as launched. -/
theorem frame_k : Cert.frame_Kernel := fun m ρ _ => Cert.Kernel.Gen.Fr.frame m ρ

/-- So does the idealized program. -/
theorem frame_ki : Cert.frame_KernelIdeal := fun m ρ _ => Cert.KernelIdeal.Gen.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both idealized programs end with the result array at the layer's
    specification of those arguments. -/
theorem algebraic : Cert.algebraic_KernelIdeal_ReferenceIdeal := by
  intro m ρ m' ρ' _ hagree
  refine ⟨fun c => Cert.Spec.fin (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), Cert.Glue.kernel_run m ρ, ?_⟩
  refine (θ_run Cert.ReferenceIdeal.defs _ _).mono (fun _ h c => ⟨(h c).1.trans ?_, (h c).2⟩) (Cert.RefSpec.ref_run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
